-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x13x512x512 : Shape := ⟨4, ![16, 13, 512, 512]⟩
abbrev S_ : Shape := ⟨0, ![]⟩

class Facts : Prop where
  bcast_S_S16x13x512x512 : S_.BroadcastsInDim S16x13x512x512 (![] : Fin 0 → Fin S16x13x512x512.rank)
  reducesTo_S16x13x512x512_S_d0_1_2_3 : S16x13x512x512.ReducesTo [0, 1, 2, 3] S_
  h_S_ : 0 < S_.numel

variable [Facts]

def fn {F : FTy → Type} [FloatOps F] (main_arg0 : FVec F S16x13x512x512 .f32) (main_arg1 : FVec F S16x13x512x512 .f32) : IVec S_ 1 :=
  let main_v0 : FVec F S16x13x512x512 .f32 := Host.absf main_arg0
  let main_cst : FVec F S_ .f32 := constant S_ .f32 0x7F800000#32
  let main_v1 : FVec F S16x13x512x512 .f32 := broadcastInDim S16x13x512x512 ![] bcast_S_S16x13x512x512 main_cst
  let main_v2 : IVec S16x13x512x512 1 := cmpf .olt main_v0 main_v1
  let main_c : IVec S_ 1 := constantI S_ 1 1#1
  let main_v3 : IVec S_ 1 := (fun x v => Host.reduce IntOp.andi x v reducesTo_S16x13x512x512_S_d0_1_2_3 h_S_) main_v2 main_c
  let main_v4 : FVec F S16x13x512x512 .f32 := Host.absf main_arg1
  let main_cst_0 : FVec F S_ .f32 := constant S_ .f32 0x7F800000#32
  let main_v5 : FVec F S16x13x512x512 .f32 := broadcastInDim S16x13x512x512 ![] bcast_S_S16x13x512x512 main_cst_0
  let main_v6 : IVec S16x13x512x512 1 := cmpf .olt main_v4 main_v5
  let main_c_1 : IVec S_ 1 := constantI S_ 1 1#1
  let main_v7 : IVec S_ 1 := (fun x v => Host.reduce IntOp.andi x v reducesTo_S16x13x512x512_S_d0_1_2_3 h_S_) main_v6 main_c_1
  let main_v8 : IVec S_ 1 := andi main_v3 main_v7
  main_v8
-- ==== Kernel.lean ====
abbrev S16x13x512x512 : Shape := ⟨4, ![16, 13, 512, 512]⟩
abbrev S16x13x8x128 : Shape := ⟨4, ![16, 13, 8, 128]⟩
abbrev S1x1x512x512 : Shape := ⟨4, ![1, 1, 512, 512]⟩
abbrev S1x1x8x128 : Shape := ⟨4, ![1, 1, 8, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x128 : Shape := ⟨2, ![8, 128]⟩
abbrev S16x13x1x1 : Shape := ⟨4, ![16, 13, 1, 1]⟩
abbrev S16x13 : Shape := ⟨2, ![16, 13]⟩
abbrev S_ : Shape := ⟨0, ![]⟩
abbrev S16x12 : Shape := ⟨2, ![16, 12]⟩

abbrev nBuf : Space → Nat
  | .hbm => 42
  | .vmem => 8
  | .smem => 0
  | _ => 0

abbrev bufTy : (tb : Table) → Fin (tcTables nBuf tb) → BufTy
  | .hbm, ⟨0, _⟩ => ⟨S16x13x512x512, .f32⟩
  | .hbm, ⟨1, _⟩ => ⟨S16x13x512x512, .f32⟩
  | .hbm, ⟨2, _⟩ => ⟨S16x13x8x128, .f32⟩
  | .hbm, ⟨3, _⟩ => ⟨S16x13x8x128, .f32⟩
  | .hbm, ⟨4, _⟩ => ⟨S16x13x1x1, .f32⟩
  | .hbm, ⟨5, _⟩ => ⟨S16x13, .f32⟩
  | .hbm, ⟨6, _⟩ => ⟨S16x13x1x1, .f32⟩
  | .hbm, ⟨7, _⟩ => ⟨S16x13, .f32⟩
  | .hbm, ⟨8, _⟩ => ⟨S_, .f32⟩
  | .hbm, ⟨9, _⟩ => ⟨S16x13, .f32⟩
  | .hbm, ⟨10, _⟩ => ⟨S16x13, .i1⟩
  | .hbm, ⟨11, _⟩ => ⟨S16x12, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i1⟩
  | .hbm, ⟨17, _⟩ => ⟨S16x13, .i1⟩
  | .hbm, ⟨18, _⟩ => ⟨S16x12, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i1⟩
  | .hbm, ⟨24, _⟩ => ⟨S16x13, .i1⟩
  | .hbm, ⟨25, _⟩ => ⟨S16x13, .i1⟩
  | .hbm, ⟨26, _⟩ => ⟨S16x13, .i1⟩
  | .hbm, ⟨27, _⟩ => ⟨S16x13, .i1⟩
  | .hbm, ⟨28, _⟩ => ⟨S_, .f32⟩
  | .hbm, ⟨29, _⟩ => ⟨S_, .f32⟩
  | .hbm, ⟨30, _⟩ => ⟨S16x13, .f32⟩
  | .hbm, ⟨31, _⟩ => ⟨S16x13, .f32⟩
  | .hbm, ⟨32, _⟩ => ⟨S16x13, .f32⟩
  | .hbm, ⟨33, _⟩ => ⟨S_, .f32⟩
  | .hbm, ⟨34, _⟩ => ⟨S16x13, .f32⟩
  | .hbm, ⟨35, _⟩ => ⟨S16x13, .f32⟩
  | .hbm, ⟨36, _⟩ => ⟨S16x13, .f32⟩
  | .hbm, ⟨37, _⟩ => ⟨S16x13, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x8x128, .f32⟩
  | .local _ .vmem, ⟨5, _⟩ => ⟨S1x1x8x128, .f32⟩
  | .local _ .vmem, ⟨6, _⟩ => ⟨S1x1x8x128, .f32⟩
  | .local _ .vmem, ⟨7, _⟩ => ⟨S1x1x8x128, .f32⟩
  | _, _ => ⟨S16x13x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_cst_2 : Ref sig .tc := ⟨.hbm, 29, rfl⟩
abbrev main_call2_v0 : Ref sig .tc := ⟨.hbm, 30, rfl⟩
abbrev main_call2_v1 : Ref sig .tc := ⟨.hbm, 31, rfl⟩
abbrev main_v14 : Ref sig .tc := ⟨.hbm, 32, rfl⟩
abbrev main_cst_3 : Ref sig .tc := ⟨.hbm, 33, rfl⟩
abbrev main_call3_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 13], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  natLt_1_32 : 1 < 32
  shapeCasts_S1x1_S1x1 : S1x1.ShapeCasts S1x1
  broadcasts_S1x1_S8x128 : S1x1.Broadcasts S8x128
  inb_S1x1x8x128_S1x1x8x128_0_0_0_0 : ∀ a, (![0, 0, 0, 0] : Fin 4 → Nat) a + S1x1x8x128.size a ≤ S1x1x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  slices_S16x13x8x128_S16x13x1x1_0_0_0_0 : S16x13x8x128.Slices ![0, 0, 0, 0] S16x13x1x1
  shapeCasts_S16x13x1x1_S16x13 : S16x13x1x1.ShapeCasts S16x13
  bcast_S_S16x13 : S_.BroadcastsInDim S16x13 (![] : Fin 0 → Fin S16x13.rank)
  slices_S16x13_S16x12_0_0 : S16x13.Slices ![0, 0] S16x12
  bcast_S_S_ : S_.BroadcastsInDim S_ (![] : Fin 0 → Fin S_.rank)
  pads_S16x12_S16x13_000_100 : S16x12.Pads (![0, 1] : Fin 2 → Nat) ![0, 0] ![0, 0] S16x13
  h_S_ : 0 < S_.numel
  slices_S16x13_S16x12_0_1 : S16x13.Slices ![0, 1] S16x12
  pads_S16x12_S16x13_000_010 : S16x12.Pads (![0, 0] : Fin 2 → Nat) ![0, 1] ![0, 0] S16x13
  reducesTo_S16x13_S_d0_1 : S16x13.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x13x512x512.size a
  hwx0_0 : ∀ i : grid0.Coords, EltTy.bits .f32 = 32 ∨ (Rect.block (s := S16x13x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x13x512x512.size a
  hwx0_1 : ∀ i : grid0.Coords, EltTy.bits .f32 = 32 ∨ (Rect.block (s := S16x13x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8x128.size a ≤ S16x13x8x128.size a
  hwx0_2 : ∀ i : grid0.Coords, EltTy.bits .f32 = 32 ∨ (Rect.block (s := S16x13x8x128) S1x1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8x128.size a ≤ S16x13x8x128.size a
  hwx0_3 : ∀ i : grid0.Coords, EltTy.bits .f32 = 32 ∨ (Rect.block (s := S16x13x8x128) S1x1x8x128.size (cc0_transform_3 i) (hinb0_3 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x13x512x512 : Shape := ⟨4, ![16, 13, 512, 512]⟩
abbrev S_ : Shape := ⟨0, ![]⟩
abbrev S16x13 : Shape := ⟨2, ![16, 13]⟩
abbrev S16x12 : Shape := ⟨2, ![16, 12]⟩
abbrev S16x13x1x1 : Shape := ⟨4, ![16, 13, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S16x13x512x512, .f32⟩
  | .hbm, ⟨1, _⟩ => ⟨S16x13x512x512, .f32⟩
  | .hbm, ⟨2, _⟩ => ⟨S_, .f32⟩
  | .hbm, ⟨3, _⟩ => ⟨S16x13x512x512, .f32⟩
  | .hbm, ⟨4, _⟩ => ⟨S16x13x512x512, .i1⟩
  | .hbm, ⟨5, _⟩ => ⟨S16x13x512x512, .f32⟩
  | .hbm, ⟨6, _⟩ => ⟨S_, .f32⟩
  | .hbm, ⟨7, _⟩ => ⟨S16x13x512x512, .f32⟩
  | .hbm, ⟨8, _⟩ => ⟨S16x13x512x512, .f32⟩
  | .hbm, ⟨9, _⟩ => ⟨S_, .f32⟩
  | .hbm, ⟨10, _⟩ => ⟨S16x13x512x512, .f32⟩
  | .hbm, ⟨11, _⟩ => ⟨S16x13x512x512, .f32⟩
  | .hbm, ⟨12, _⟩ => ⟨S_, .i1⟩
  | .hbm, ⟨13, _⟩ => ⟨S16x13, .i1⟩
  | .hbm, ⟨14, _⟩ => ⟨S16x12, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i1⟩
  | .hbm, ⟨20, _⟩ => ⟨S16x13, .i1⟩
  | .hbm, ⟨21, _⟩ => ⟨S16x12, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i1⟩
  | .hbm, ⟨27, _⟩ => ⟨S16x13, .i1⟩
  | .hbm, ⟨28, _⟩ => ⟨S16x13, .i1⟩
  | .hbm, ⟨29, _⟩ => ⟨S16x13, .i1⟩
  | .hbm, ⟨30, _⟩ => ⟨S16x13, .i1⟩
  | .hbm, ⟨31, _⟩ => ⟨S_, .f32⟩
  | .hbm, ⟨32, _⟩ => ⟨S_, .f32⟩
  | .hbm, ⟨33, _⟩ => ⟨S16x13, .f32⟩
  | .hbm, ⟨34, _⟩ => ⟨S16x13, .f32⟩
  | .hbm, ⟨35, _⟩ => ⟨S16x13, .f32⟩
  | .hbm, ⟨36, _⟩ => ⟨S_, .f32⟩
  | .hbm, ⟨37, _⟩ => ⟨S16x13, .f32⟩
  | .hbm, ⟨38, _⟩ => ⟨S16x13, .f32⟩
  | .hbm, ⟨39, _⟩ => ⟨S16x13, .f32⟩
  | .hbm, ⟨40, _⟩ => ⟨S16x13x1x1, .f32⟩
  | .hbm, ⟨41, _⟩ => ⟨S16x13x512x512, .f32⟩
  | .hbm, ⟨42, _⟩ => ⟨S16x13x512x512, .f32⟩
  | .hbm, ⟨43, _⟩ => ⟨S16x13x512x512, .f32⟩
  | .hbm, ⟨44, _⟩ => ⟨S16x13x512x512, .f32⟩
  | .hbm, ⟨45, _⟩ => ⟨S16x13x512x512, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S16x13x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_cst_5 : Ref sig .tc := ⟨.hbm, 32, rfl⟩
abbrev main_call2_v0 : Ref sig .tc := ⟨.hbm, 33, rfl⟩
abbrev main_call2_v1 : Ref sig .tc := ⟨.hbm, 34, rfl⟩
abbrev main_v15 : Ref sig .tc := ⟨.hbm, 35, rfl⟩
abbrev main_cst_6 : Ref sig .tc := ⟨.hbm, 36, rfl⟩
abbrev main_call3_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_cst_8 : Ref sig .tc := ⟨.hbm, 48, rfl⟩
abbrev main_v25 : Ref sig .tc := ⟨.hbm, 49, rfl⟩

abbrev nD : Nat := 1
abbrev τ : Topo := Topo.v7x

variable {F : FTy → Type} [FloatOps F]

class Facts₀ : Prop where
  bcast_S_S16x13x512x512 : S_.BroadcastsInDim S16x13x512x512 (![] : Fin 0 → Fin S16x13x512x512.rank)
  reducesTo_S16x13x512x512_S16x13_d2_3 : S16x13x512x512.ReducesTo [2, 3] S16x13
  h_S_ : 0 < S_.numel
  slices_S16x13_S16x12_0_0 : S16x13.Slices ![0, 0] S16x12
  bcast_S_S_ : S_.BroadcastsInDim S_ (![] : Fin 0 → Fin S_.rank)
  pads_S16x12_S16x13_000_100 : S16x12.Pads (![0, 1] : Fin 2 → Nat) ![0, 0] ![0, 0] S16x13
  slices_S16x13_S16x12_0_1 : S16x13.Slices ![0, 1] S16x12
  pads_S16x12_S16x13_000_010 : S16x12.Pads (![0, 0] : Fin 2 → Nat) ![0, 1] ![0, 0] S16x13
  bcast_S_S16x13 : S_.BroadcastsInDim S16x13 (![] : Fin 0 → Fin S16x13.rank)
  bcast_S16x13_S16x13x1x1_0_1 : S16x13.BroadcastsInDim S16x13x1x1 (![0, 1] : Fin 2 → Fin S16x13x1x1.rank)
  bcast_S16x13x1x1_S16x13x512x512_0_1_2_3 : S16x13x1x1.BroadcastsInDim S16x13x512x512 (![0, 1, 2, 3] : Fin 4 → Fin S16x13x512x512.rank)
  reducesTo_S16x13x512x512_S_d0_1_2_3 : S16x13x512x512.ReducesTo [0, 1, 2, 3] S_

variable [Facts₀]

class Facts : Prop extends Facts₀ where

variable [Facts]
-- ==== Proof.Spec.lean ====
/-
  The specification both programs are read against.

  prediction P and target T are f32[16, 13, 512, 512]: 16 x 13 slices of 512 x 512 pixels. A pixel is FOREGROUND when its
  target exceeds 1/2; a slice's foreground bit is the `or` of its pixels' bits. From the 16 x 13 bits a per-slice
  multiplier is computed (`sliceMult`: 1 on a foreground slice; 0 on a background slice next to a foreground one along
  the second axis; 5 on every other background slice) — by the same operations in both programs, so it is written once
  here and never opened except to see that its values are reals. The loss is the mean over all pixels of
    (P - T)^2 * weight * multiplier(slice),   weight = 10 on foreground pixels, 1 elsewhere.
  The kernel sums (P - T)^2 * weight over each slice first and multiplies the slice's sum by its multiplier (`kernelTerm`);
  the reference multiplies weight by the multiplier at every pixel and sums once (`refTerm`).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Spec

open Idealize.ShloMosaic Idealize.ShloMosaic.ValueIdx

abbrev S4 : Shape := ⟨4, ![16, 13, 512, 512]⟩
abbrev S411 : Shape := ⟨4, ![16, 13, 1, 1]⟩
abbrev S2 : Shape := ⟨2, ![16, 13]⟩
abbrev S2m : Shape := ⟨2, ![16, 12]⟩
abbrev S0 : Shape := ⟨0, ![]⟩

theorem hb04 : S0.BroadcastsInDim S4 (![] : Fin 0 → Fin S4.rank) := by decide
theorem hb02 : S0.BroadcastsInDim S2 (![] : Fin 0 → Fin S2.rank) := by decide
theorem hb00 : S0.BroadcastsInDim S0 (![] : Fin 0 → Fin S0.rank) := by decide
theorem hb2411 : S2.BroadcastsInDim S411 (![0, 1] : Fin 2 → Fin S411.rank) := by decide
theorem hb4114 : S411.BroadcastsInDim S4 (![0, 1, 2, 3] : Fin 4 → Fin S4.rank) := by decide
theorem hsl0 : S2.Slices ![0, 0] S2m := by decide
theorem hsl1 : S2.Slices ![0, 1] S2m := by decide
theorem hpadLo : S2m.Pads (![0, 1] : Fin 2 → Nat) ![0, 0] ![0, 0] S2 := by decide
theorem hpadHi : S2m.Pads (![0, 0] : Fin 2 → Nat) ![0, 1] ![0, 0] S2 := by decide
theorem hS0 : 0 < S0.numel := by decide
theorem hr23 : S4.ReducesTo [2, 3] S2 := by decide
theorem hr0123 : S4.ReducesTo [0, 1, 2, 3] S0 := by decide
theorem hr01 : S2.ReducesTo [0, 1] S0 := by decide

section AnyF
variable {F : FTy → Type} [FloatOps F]

/-- The slice multiplier from the slices' foreground bits: the bits shifted one slice up and one slice down along the
    second axis (a slice of 12 padded back to 13 with `false`), "background and next to foreground" selects 0 over 5,
    and foreground selects 1 over that. -/
def sliceMult (h : IVec S2 1) : FVec F S2 .f32 :=
  id (select h (broadcastInDim S2 ![] hb02 (constant (F := F) S0 .f32 0x3F800000#32))
    (select (andi (noti h) (ori
        (pad S2 ![0, 1] ![0, 0] ![0, 0] (extractStridedSlice S2m ![0, 0] h hsl0)
          (id (cmpi .ne (constantI S0 32 0#32) (broadcastInDim S0 ![] hb00 (constantI S0 32 0#32)))) hpadLo hS0)
        (pad S2 ![0, 0] ![0, 1] ![0, 0] (extractStridedSlice S2m ![0, 1] h hsl1)
          (id (cmpi .ne (constantI S0 32 0#32) (broadcastInDim S0 ![] hb00 (constantI S0 32 0#32)))) hpadHi hS0)))
      (broadcastInDim S2 ![] hb02 (constant (F := F) S0 .f32 0x00000000#32))
      (broadcastInDim S2 ![] hb02 (constant (F := F) S0 .f32 0x40A00000#32))))

/-- The pixels' foreground bits: target above 1/2. -/
def fgBits (T : FVec F S4 .f32) : IVec S4 1 :=
  cmpf .ogt T (broadcastInDim S4 ![] hb04 (constant (F := F) S0 .f32 0x3F000000#32))

/-- The slices' foreground bits: the `or` over a slice's pixels, from `false`. -/
def sliceAny (T : FVec F S4 .f32) : IVec S2 1 :=
  Host.reduce IntOp.ori (fgBits T) (constantI S0 1 0#1) hr23 hS0

/-- THE REFERENCE'S RESULT: the sum over all pixels of (P - T)^2 * ((bit * 9 + 1) * multiplier(slice)), over the pixel count. -/
def refTerm (P T : FVec F S4 .f32) : FVec F S0 .f32 :=
  Host.divf (Host.reduceAdd
    (mulf (mulf (subf P T) (subf P T))
      (mulf (addf (mulf (uitofp (F := F) .f32 (fgBits T)) (broadcastInDim S4 ![] hb04 (constant (F := F) S0 .f32 0x41100000#32)))
              (broadcastInDim S4 ![] hb04 (constant (F := F) S0 .f32 0x3F800000#32)))
        (broadcastInDim S4 ![0, 1, 2, 3] hb4114 (broadcastInDim S411 ![0, 1] hb2411 (sliceMult (sliceAny T))))))
    (constant (F := F) S0 .f32 0x00000000#32) hr0123 hS0) (constant (F := F) S0 .f32 0x4C500000#32)

/-- The kernel's closing arithmetic from the slices' sums `s` and a multiplier array `M`: the sum over slices of
    s * M, over the pixel count. -/
def kernelTermM (s M : FVec F S2 .f32) : FVec F S0 .f32 :=
  Host.divf (Host.reduceAdd (mulf s M) (constant (F := F) S0 .f32 0x00000000#32) hr01 hS0)
    (constant (F := F) S0 .f32 0x4C500000#32)

/-- THE KERNEL'S RESULT from the slices' sums `s` and the slices' foreground bits `h`. -/
def kernelTermOf (s : FVec F S2 .f32) (h : IVec S2 1) : FVec F S0 .f32 :=
  kernelTermM s (sliceMult h)

end AnyF

/-! ## At the extended reals -/

/-- A pixel's weighted squared error as the kernel computes it: (P - T)^2 times 10 on foreground, 1 elsewhere. -/
def wsq (P T : FVec Ideal S4 .f32) (i : S4.Idx) : EReal :=
  (P i - T i) * (P i - T i)
    * Scalar.select (Ideal.cmp .ogt (T i) (Ideal.ofBits .f32 0x3F000000#32)) (Ideal.ofBits .f32 0x41200000#32) (Ideal.ofBits .f32 0x3F800000#32)

/-- A slice's sum of weighted squared errors, rows outermost as the kernel adds them. -/
def sliceSum (P T : FVec Ideal S4 .f32) : FVec Ideal S2 .f32 :=
  fun j => ∑ h : Fin 512, ∑ w : Fin 512, wsq P T (ix4 (j 0) (j 1) h w)

/-- THE KERNEL'S RESULT as a function of the two arrays. -/
def kernelTerm (P T : FVec Ideal S4 .f32) : FVec Ideal S0 .f32 :=
  kernelTermOf (sliceSum P T) (sliceAny T)

end Cert.Spec

end
-- ==== Proof.RefValue.lean ====
/-
  What the reference leaves in its result buffer: `refTerm` of the two argument arrays.

  The reference's @main is 48 host operations in a row. They are read in three stretches, each over an arbitrary
  valuation of the buffers, so that no step handles more than one stretch's terms: the first twelve compute the pixels'
  foreground bits, the pixels' weights `bit * 9 + 1` and the slices' foreground bits; the next twenty-six turn the
  slices' bits into the slice multiplier (shift, pad, not / or / and, two selections) and touch nothing else that is
  read later; the last ten broadcast the multiplier to the pixels, multiply, sum everything and divide by the count.
-/
import proofs.«415915_j10514079940984_3_alg».proof.Proof.RefRun
import proofs.«415915_j10514079940984_3_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- Operations 1–12: the pixels' bits, the pixels' weights, the slices' bits. -/
abbrev opsA : List (HloOp τ sig (Elt F)) :=
  [
    nullary main_cst (constant S_ .f32 0x3F000000#32),
    unary main_cst main_v0 (broadcastInDim S16x13x512x512 ![] bcast_S_S16x13x512x512 : (⟨S_, .f32⟩ : BufTy).Contents (Elt F) → (⟨S16x13x512x512, .f32⟩ : BufTy).Contents (Elt F)),
    binary main_arg1 main_v0 main_v1 (cmpf .ogt : (⟨S16x13x512x512, .f32⟩ : BufTy).Contents (Elt F) → (⟨S16x13x512x512, .f32⟩ : BufTy).Contents (Elt F) → (⟨S16x13x512x512, .i1⟩ : BufTy).Contents (Elt F)),
    unary main_v1 main_v2 (uitofp .f32 : (⟨S16x13x512x512, .i1⟩ : BufTy).Contents (Elt F) → (⟨S16x13x512x512, .f32⟩ : BufTy).Contents (Elt F)),
    nullary main_cst_0 (constant S_ .f32 0x41100000#32),
    unary main_cst_0 main_v3 (broadcastInDim S16x13x512x512 ![] bcast_S_S16x13x512x512 : (⟨S_, .f32⟩ : BufTy).Contents (Elt F) → (⟨S16x13x512x512, .f32⟩ : BufTy).Contents (Elt F)),
    binary main_v2 main_v3 main_v4 (mulf : (⟨S16x13x512x512, .f32⟩ : BufTy).Contents (Elt F) → (⟨S16x13x512x512, .f32⟩ : BufTy).Contents (Elt F) → (⟨S16x13x512x512, .f32⟩ : BufTy).Contents (Elt F)),
    nullary main_cst_1 (constant S_ .f32 0x3F800000#32),
    unary main_cst_1 main_v5 (broadcastInDim S16x13x512x512 ![] bcast_S_S16x13x512x512 : (⟨S_, .f32⟩ : BufTy).Contents (Elt F) → (⟨S16x13x512x512, .f32⟩ : BufTy).Contents (Elt F)),
    binary main_v4 main_v5 main_v6 (addf : (⟨S16x13x512x512, .f32⟩ : BufTy).Contents (Elt F) → (⟨S16x13x512x512, .f32⟩ : BufTy).Contents (Elt F) → (⟨S16x13x512x512, .f32⟩ : BufTy).Contents (Elt F)),
    nullary main_c (constantI S_ 1 0#1),
    binary main_v1 main_c main_v7 ((fun x v => Host.reduce IntOp.ori x v reducesTo_S16x13x512x512_S16x13_d2_3 h_S_) : (⟨S16x13x512x512, .i1⟩ : BufTy).Contents (Elt F) → (⟨S_, .i1⟩ : BufTy).Contents (Elt F) → (⟨S16x13, .i1⟩ : BufTy).Contents (Elt F)) ]

/-- Operations 13–38: from the slices' bits to the slice multiplier. -/
abbrev opsB : List (HloOp τ sig (Elt F)) :=
  [
    unary main_v7 main_v8 ((extractStridedSlice S16x12 ![0, 0] · slices_S16x13_S16x12_0_0) : (⟨S16x13, .i1⟩ : BufTy).Contents (Elt F) → (⟨S16x12, .i1⟩ : BufTy).Contents (Elt F)),
    nullary main_c_2 (constantI S_ 32 0#32),
    TRef.nullary (TRef.of (T := ⟨S_, .i32⟩) main_call0_c) (constantI S_ 32 0#32),
    TRef.unary (TRef.of (T := ⟨S_, .i32⟩) main_call0_c) (TRef.of (T := ⟨S_, .i32⟩) main_call0_v0) (broadcastInDim S_ ![] bcast_S_S_),
    TRef.binary (TRef.of (T := ⟨S_, .i32⟩) main_c_2) (TRef.of (T := ⟨S_, .i32⟩) main_call0_v0) (TRef.of (T := ⟨S_, .i1⟩) main_call0_v1) (cmpi .ne),
    TRef.unary (TRef.of (T := ⟨S_, .i1⟩) main_call0_v1) (TRef.of (T := ⟨S_, .i1⟩) main_call0_v2) id,
    TRef.binary (TRef.of (T := ⟨S16x12, .i1⟩) main_v8) (TRef.of (T := ⟨S_, .i1⟩) main_call0_v2) (TRef.of (T := ⟨S16x13, .i1⟩) main_v9) (fun x v => pad S16x13 ![0, 1] ![0, 0] ![0, 0] x v pads_S16x12_S16x13_000_100 h_S_),
    unary main_v7 main_v10 ((extractStridedSlice S16x12 ![0, 1] · slices_S16x13_S16x12_0_1) : (⟨S16x13, .i1⟩ : BufTy).Contents (Elt F) → (⟨S16x12, .i1⟩ : BufTy).Contents (Elt F)),
    nullary main_c_3 (constantI S_ 32 0#32),
    TRef.nullary (TRef.of (T := ⟨S_, .i32⟩) main_call1_c) (constantI S_ 32 0#32),
    TRef.unary (TRef.of (T := ⟨S_, .i32⟩) main_call1_c) (TRef.of (T := ⟨S_, .i32⟩) main_call1_v0) (broadcastInDim S_ ![] bcast_S_S_),
    TRef.binary (TRef.of (T := ⟨S_, .i32⟩) main_c_3) (TRef.of (T := ⟨S_, .i32⟩) main_call1_v0) (TRef.of (T := ⟨S_, .i1⟩) main_call1_v1) (cmpi .ne),
    TRef.unary (TRef.of (T := ⟨S_, .i1⟩) main_call1_v1) (TRef.of (T := ⟨S_, .i1⟩) main_call1_v2) id,
    TRef.binary (TRef.of (T := ⟨S16x12, .i1⟩) main_v10) (TRef.of (T := ⟨S_, .i1⟩) main_call1_v2) (TRef.of (T := ⟨S16x13, .i1⟩) main_v11) (fun x v => pad S16x13 ![0, 0] ![0, 1] ![0, 0] x v pads_S16x12_S16x13_000_010 h_S_),
    unary main_v7 main_v12 (noti : (⟨S16x13, .i1⟩ : BufTy).Contents (Elt F) → (⟨S16x13, .i1⟩ : BufTy).Contents (Elt F)),
    binary main_v9 main_v11 main_v13 (ori : (⟨S16x13, .i1⟩ : BufTy).Contents (Elt F) → (⟨S16x13, .i1⟩ : BufTy).Contents (Elt F) → (⟨S16x13, .i1⟩ : BufTy).Contents (Elt F)),
    binary main_v12 main_v13 main_v14 (andi : (⟨S16x13, .i1⟩ : BufTy).Contents (Elt F) → (⟨S16x13, .i1⟩ : BufTy).Contents (Elt F) → (⟨S16x13, .i1⟩ : BufTy).Contents (Elt F)),
    nullary main_cst_4 (constant S_ .f32 0x00000000#32),
    nullary main_cst_5 (constant S_ .f32 0x40A00000#32),
    TRef.unary (TRef.of (T := ⟨S_, .f32⟩) main_cst_4) (TRef.of (T := ⟨S16x13, .f32⟩) main_call2_v0) (broadcastInDim S16x13 ![] bcast_S_S16x13),
    TRef.unary (TRef.of (T := ⟨S_, .f32⟩) main_cst_5) (TRef.of (T := ⟨S16x13, .f32⟩) main_call2_v1) (broadcastInDim S16x13 ![] bcast_S_S16x13),
    TRef.ternary (TRef.of (T := ⟨S16x13, .i1⟩) main_v14) (TRef.of (T := ⟨S16x13, .f32⟩) main_call2_v0) (TRef.of (T := ⟨S16x13, .f32⟩) main_call2_v1) (TRef.of (T := ⟨S16x13, .f32⟩) main_v15) select,
    nullary main_cst_6 (constant S_ .f32 0x3F800000#32),
    TRef.unary (TRef.of (T := ⟨S_, .f32⟩) main_cst_6) (TRef.of (T := ⟨S16x13, .f32⟩) main_call3_v0) (broadcastInDim S16x13 ![] bcast_S_S16x13),
    TRef.ternary (TRef.of (T := ⟨S16x13, .i1⟩) main_v7) (TRef.of (T := ⟨S16x13, .f32⟩) main_call3_v0) (TRef.of (T := ⟨S16x13, .f32⟩) main_v15) (TRef.of (T := ⟨S16x13, .f32⟩) main_v16) select,
    unary main_v16 main_v17 (id : (⟨S16x13, .f32⟩ : BufTy).Contents (Elt F) → (⟨S16x13, .f32⟩ : BufTy).Contents (Elt F)) ]

/-- Operations 39–48: broadcast, multiply, sum, divide. -/
abbrev opsC : List (HloOp τ sig (Elt F)) :=
  [
    unary main_v17 main_v18 (broadcastInDim S16x13x1x1 ![0, 1] bcast_S16x13_S16x13x1x1_0_1 : (⟨S16x13, .f32⟩ : BufTy).Contents (Elt F) → (⟨S16x13x1x1, .f32⟩ : BufTy).Contents (Elt F)),
    unary main_v18 main_v19 (broadcastInDim S16x13x512x512 ![0, 1, 2, 3] bcast_S16x13x1x1_S16x13x512x512_0_1_2_3 : (⟨S16x13x1x1, .f32⟩ : BufTy).Contents (Elt F) → (⟨S16x13x512x512, .f32⟩ : BufTy).Contents (Elt F)),
    binary main_v6 main_v19 main_v20 (mulf : (⟨S16x13x512x512, .f32⟩ : BufTy).Contents (Elt F) → (⟨S16x13x512x512, .f32⟩ : BufTy).Contents (Elt F) → (⟨S16x13x512x512, .f32⟩ : BufTy).Contents (Elt F)),
    binary main_arg0 main_arg1 main_v21 (subf : (⟨S16x13x512x512, .f32⟩ : BufTy).Contents (Elt F) → (⟨S16x13x512x512, .f32⟩ : BufTy).Contents (Elt F) → (⟨S16x13x512x512, .f32⟩ : BufTy).Contents (Elt F)),
    binary main_v21 main_v21 main_v22 (mulf : (⟨S16x13x512x512, .f32⟩ : BufTy).Contents (Elt F) → (⟨S16x13x512x512, .f32⟩ : BufTy).Contents (Elt F) → (⟨S16x13x512x512, .f32⟩ : BufTy).Contents (Elt F)),
    binary main_v22 main_v20 main_v23 (mulf : (⟨S16x13x512x512, .f32⟩ : BufTy).Contents (Elt F) → (⟨S16x13x512x512, .f32⟩ : BufTy).Contents (Elt F) → (⟨S16x13x512x512, .f32⟩ : BufTy).Contents (Elt F)),
    nullary main_cst_7 (constant S_ .f32 0x00000000#32),
    binary main_v23 main_cst_7 main_v24 ((fun x v => Host.reduceAdd x v reducesTo_S16x13x512x512_S_d0_1_2_3 h_S_) : (⟨S16x13x512x512, .f32⟩ : BufTy).Contents (Elt F) → (⟨S_, .f32⟩ : BufTy).Contents (Elt F) → (⟨S_, .f32⟩ : BufTy).Contents (Elt F)),
    nullary main_cst_8 (constant S_ .f32 0x4C500000#32),
    binary main_v24 main_cst_8 main_v25 (Host.divf : (⟨S_, .f32⟩ : BufTy).Contents (Elt F) → (⟨S_, .f32⟩ : BufTy).Contents (Elt F) → (⟨S_, .f32⟩ : BufTy).Contents (Elt F)) ]

/-- The three stretches are the whole list. -/
theorem ops_split : (RunP.ops (F := F)) = opsA ++ (opsB ++ opsC) := rfl

/-! ## The first stretch -/

theorem A_any (V : Valuation τ sig (Elt F)) :
    after (opsA (F := F)) V (Proc.devRef .tc main_v7) = Cert.Spec.sliceAny (F := F) (V (Proc.devRef .tc main_arg1)) := by
  after_results_simp
  generalize V (Proc.devRef .tc main_arg1) = T
  rfl

theorem A_weight (V : Valuation τ sig (Elt F)) :
    after (opsA (F := F)) V (Proc.devRef .tc main_v6)
      = addf (mulf (uitofp (F := F) .f32 (Cert.Spec.fgBits (F := F) (V (Proc.devRef .tc main_arg1))))
            (broadcastInDim Cert.Spec.S4 ![] Cert.Spec.hb04 (constant (F := F) Cert.Spec.S0 .f32 0x41100000#32)))
          (broadcastInDim Cert.Spec.S4 ![] Cert.Spec.hb04 (constant (F := F) Cert.Spec.S0 .f32 0x3F800000#32)) := by
  after_results_simp
  generalize V (Proc.devRef .tc main_arg1) = T
  rfl

theorem A_arg0 (V : Valuation τ sig (Elt F)) :
    after (opsA (F := F)) V (Proc.devRef .tc main_arg0) = V (Proc.devRef .tc main_arg0) := by
  after_results_simp

theorem A_arg1 (V : Valuation τ sig (Elt F)) :
    after (opsA (F := F)) V (Proc.devRef .tc main_arg1) = V (Proc.devRef .tc main_arg1) := by
  after_results_simp

/-! ## The second stretch -/

theorem B_mult (V : Valuation τ sig (Elt F)) :
    after (opsB (F := F)) V (Proc.devRef .tc main_v17)
      = (Cert.Spec.sliceMult (F := F) (V (Proc.devRef .tc main_v7)) : FVec F Cert.Spec.S2 .f32) := by
  after_results_simp
  generalize V (Proc.devRef .tc main_v7) = h
  unfold Cert.Spec.sliceMult
  rfl

theorem B_arg0 (V : Valuation τ sig (Elt F)) :
    after (opsB (F := F)) V (Proc.devRef .tc main_arg0) = V (Proc.devRef .tc main_arg0) := by
  after_results_simp

theorem B_arg1 (V : Valuation τ sig (Elt F)) :
    after (opsB (F := F)) V (Proc.devRef .tc main_arg1) = V (Proc.devRef .tc main_arg1) := by
  after_results_simp

theorem B_weight (V : Valuation τ sig (Elt F)) :
    after (opsB (F := F)) V (Proc.devRef .tc main_v6) = V (Proc.devRef .tc main_v6) := by
  after_results_simp

/-! ## The third stretch -/

theorem C_result (V : Valuation τ sig (Elt F)) :
    after (opsC (F := F)) V (Proc.devRef .tc main_v25)
      = Host.divf (Host.reduceAdd
          (mulf (mulf (subf (V (Proc.devRef .tc main_arg0)) (V (Proc.devRef .tc main_arg1)))
                  (subf (V (Proc.devRef .tc main_arg0)) (V (Proc.devRef .tc main_arg1))))
            (mulf (V (Proc.devRef .tc main_v6))
              (broadcastInDim Cert.Spec.S4 ![0, 1, 2, 3] Cert.Spec.hb4114
                (broadcastInDim Cert.Spec.S411 ![0, 1] Cert.Spec.hb2411 (V (Proc.devRef .tc main_v17))))))
          (constant (F := F) Cert.Spec.S0 .f32 0x00000000#32) Cert.Spec.hr0123 Cert.Spec.hS0)
        (constant (F := F) Cert.Spec.S0 .f32 0x4C500000#32) := by
  after_results_simp

/-! ## The whole list -/

/-- THE REFERENCE'S RESULT: after the 48 operations the result buffer holds `refTerm` of the two argument arrays. -/
theorem result (V : Valuation τ sig (Elt F)) :
    after (RunP.ops (F := F)) V (Proc.devRef .tc main_v25)
      = Cert.Spec.refTerm (F := F) (V (Proc.devRef .tc main_arg0)) (V (Proc.devRef .tc main_arg1)) := by
  rw [ops_split, after_app, after_app, C_result, B_arg0, B_arg1, B_weight, B_mult, A_arg0, A_arg1, A_weight, A_any]
  rfl

/-- The reference leaves its argument arrays as they were. -/
theorem kept_arg0 (V : Valuation τ sig (Elt F)) :
    after (RunP.ops (F := F)) V (Proc.devRef .tc main_arg0) = V (Proc.devRef .tc main_arg0) := by
  rw [ops_split, after_app, after_app]
  after_results_simp

theorem kept_arg1 (V : Valuation τ sig (Elt F)) :
    after (RunP.ops (F := F)) V (Proc.devRef .tc main_arg1) = V (Proc.devRef .tc main_arg1) := by
  rw [ops_split, after_app, after_app]
  after_results_simp

end Cert.ReferenceIdeal.RefValue

end
-- ==== Proof.KLayout.lean ====
/-
  The kernel body's layout steps read at explicit coordinates.

  The body works on one slice: a 1 x 1 x 512 x 512 block viewed as 512 x 512, reduced along columns to 512, viewed as
  512 x 1, reduced along rows to 1, viewed as 1 x 1 and broadcast to the 8 x 128 output tile, which is stored as
  1 x 1 x 8 x 128. Each lemma reads one of these steps at an index given by its coordinates; they hold for any element
  type.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.KLayout

open Idealize.ShloMosaic Idealize.ShloMosaic.ValueIdx

abbrev B4 : Shape := ⟨4, ![1, 1, 512, 512]⟩
abbrev B2 : Shape := ⟨2, ![512, 512]⟩
abbrev R1 : Shape := ⟨1, ![512]⟩
abbrev R2 : Shape := ⟨2, ![512, 1]⟩
abbrev U1 : Shape := ⟨1, ![1]⟩
abbrev U2 : Shape := ⟨2, ![1, 1]⟩
abbrev O2 : Shape := ⟨2, ![8, 128]⟩
abbrev O4 : Shape := ⟨4, ![1, 1, 8, 128]⟩

variable {α : Type}

/-- The slice's block viewed as a matrix: entry (h, w) is the block's entry (0, 0, h, w). -/
theorem block_as_matrix (v : B4.Idx → α) (hc : B4.ShapeCasts B2) (h w : Fin 512) :
    shapeCast B2 v hc (ix2 h w) = v (ix4 (0 : Fin 1) (0 : Fin 1) h w) := by
  refine shapeCast_apply v hc (ix2 h w) (ix4 (0 : Fin 1) (0 : Fin 1) h w) ?_
  rw [Shape.rowMajor_val_four, Shape.rowMajor_val_two]
  show ((0 * 1 + 0) * 512 + h.val) * 512 + w.val = h.val * 512 + w.val
  omega

/-- A vector of 512 viewed as a column: entry (h, 0) is entry h. -/
theorem vector_as_column (v : R1.Idx → α) (hc : R1.ShapeCasts R2) (h : Fin 512) :
    shapeCast R2 v hc (ix2 h (0 : Fin 1)) = v (ix1 h) := by
  refine shapeCast_apply v hc (ix2 h (0 : Fin 1)) (ix1 h) ?_
  rw [Shape.rowMajor_val_one, Shape.rowMajor_val_two]
  show h.val = h.val * 1 + 0
  omega

/-- A vector of one entry viewed as a 1 x 1 matrix. -/
theorem unit_as_matrix (v : U1.Idx → α) (hc : U1.ShapeCasts U2) :
    shapeCast U2 v hc (ix2 (0 : Fin 1) (0 : Fin 1)) = v (ix1 (0 : Fin 1)) := by
  refine shapeCast_apply v hc (ix2 (0 : Fin 1) (0 : Fin 1)) (ix1 (0 : Fin 1)) ?_
  rw [Shape.rowMajor_val_one, Shape.rowMajor_val_two]
  rfl

/-- A 1 x 1 matrix broadcast to the output tile holds its one entry everywhere. -/
theorem unit_to_tile (v : U2.Idx → α) (hb : U2.Broadcasts O2) (y : O2.Idx) :
    broadcastTo O2 v hb y = v (ix2 (0 : Fin 1) (0 : Fin 1)) := by
  refine broadcastTo_apply v hb y (ix2 (0 : Fin 1) (0 : Fin 1)) ?_
  intro a
  match a with
  | ⟨0, _⟩ => rfl
  | ⟨1, _⟩ => rfl

/-- The output tile stored as a 1 x 1 x 8 x 128 block: entry z is the tile's entry at z's last two coordinates. -/
theorem tile_as_block (v : O2.Idx → α) (hc : O2.ShapeCasts O4) (z : O4.Idx) :
    shapeCast O4 v hc z = v (ix2 (z 2) (z 3)) := by
  refine shapeCast_apply v hc z (ix2 (z 2) (z 3)) ?_
  rw [Shape.rowMajor_val_four, Shape.rowMajor_val_two]
  have h0 : (z 0).val = 0 := by have : (z 0).val < 1 := (z 0).isLt; omega
  have h1 : (z 1).val = 0 := by have : (z 1).val < 1 := (z 1).isLt; omega
  show (z 2).val * 128 + (z 3).val = (((z 0).val * 1 + (z 1).val) * 8 + (z 2).val) * 128 + (z 3).val
  rw [h0, h1]
  omega

/-- Reducing the columns of the 512 x 512 matrix: the index put back under row h at column w is (h, w). -/
theorem lift_columns (hr : B2.Reduces [1] R1) (h w : Fin 512) : hr.lift (ix1 h) w = ix2 h w := by
  funext a
  match a with
  | ⟨0, _⟩ => exact Fin.ext rfl
  | ⟨1, _⟩ => exact Fin.ext rfl

/-- Reducing the rows of the 512 x 1 column: the index put back at row h is (h, 0). -/
theorem lift_rows (hr : R2.Reduces [0] U1) (h : Fin 512) : hr.lift (ix1 (0 : Fin 1)) h = ix2 h (0 : Fin 1) := by
  funext a
  match a with
  | ⟨0, _⟩ => exact Fin.ext rfl
  | ⟨1, _⟩ => exact Fin.ext rfl

end Cert.KLayout

end
-- ==== Proof.AnyBit.lean ====
/-
  "Some element exceeds the threshold", two ways.

  The reference takes the one-bit `or` of a comparison over the reduced axes, from 0. The kernel has no boolean
  reduction: it selects 1 or 0 by the comparison, takes the maximum from -∞ over an axis, and asks whether the maximum
  is above 0. Both are 1 exactly when some element under the reduction has its comparison bit set; this module proves
  the two readings, over any index type, so that the bridge compares the two programs' bits through one existential.
-/
import Idealize.ShloMosaic.PureOps.Ideal
import Idealize.ShloMosaic.PureOps.Ideal.Laws
import Idealize.ShloMosaic.PureOps.Reduce
import Idealize.ShloMosaic.Lib.ValueIdx
import Mathlib.Data.Finset.Fold

noncomputable section

namespace Cert.AnyBit

open Idealize.ShloMosaic Idealize.ShloMosaic.ValueIdx

/-- A one-bit word is 0 or 1, so two of them are equal as soon as one is 1 exactly when the other is. -/
theorem bit_ext {a b : BitVec 1} (h : a = 1#1 ↔ b = 1#1) : a = b := by
  rcases BitVec.eq_zero_or_eq_one a with ha | ha <;> rcases BitVec.eq_zero_or_eq_one b with hb | hb
  · rw [ha, hb]
  · exact absurd (h.2 hb) (by rw [ha]; decide)
  · exact absurd (h.1 ha) (by rw [hb]; decide)
  · rw [ha, hb]

/-- A one-bit `or` is 1 iff one of its operands is. -/
theorem ori_eq_one (a b : BitVec 1) : IntOp.ori a b = 1#1 ↔ a = 1#1 ∨ b = 1#1 := by
  unfold IntOp.ori; revert a b; decide

/-- A left fold by `or` over one-bit words is 1 iff it started at 1 or met a 1. -/
theorem foldl_ori_eq_one {ι : Type} (f : ι → BitVec 1) :
    ∀ (l : List ι) (init : BitVec 1),
      l.foldl (fun r n => IntOp.ori r (f n)) init = 1#1 ↔ init = 1#1 ∨ ∃ n ∈ l, f n = 1#1
  | [], init => by simp
  | a :: l, init => by
    rw [List.foldl_cons, foldl_ori_eq_one f l, ori_eq_one]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-- The host's reduce by `or` from 0 is 1 at `j` iff some operand index that reduces into `j` holds a 1. -/
theorem reduce_ori_eq_one {s t u : Shape} {axes : List (Fin s.rank)} (x : s.Idx → BitVec 1) (init : u.Idx → BitVec 1)
    (h : s.ReducesTo axes t) (hu : 0 < u.numel) (hinit : init (Shape.Idx.first hu) = 0#1) (j : t.Idx) :
    Host.reduce IntOp.ori x init h hu j = 1#1 ↔ ∃ i : s.Idx, h.drop i = j ∧ x i = 1#1 := by
  rw [Host.reduce_eq_foldl, foldl_ori_eq_one, hinit]
  constructor
  · rintro (h0 | ⟨i, hi, hx⟩)
    · exact absurd h0 (by decide)
    · rw [List.mem_filter] at hi
      exact ⟨i, by simpa using hi.2, hx⟩
  · rintro ⟨i, hi, hx⟩
    exact Or.inr ⟨i, List.mem_filter.2 ⟨List.mem_map.2 ⟨s.rowMajor i, List.mem_finRange _,
      Equiv.symm_apply_apply _ _⟩, by simp [hi]⟩, hx⟩

/-- The comparison "greater than" of extended reals is the bit 1 iff the order says so. -/
theorem cmp_ogt_eq_one (x y : EReal) : Ideal.cmp .ogt x y = 1#1 ↔ y < x := by
  unfold Ideal.cmp
  by_cases h : y < x <;> simp [h]

/-- The kernel's reading: select 1 or 0 by a bit, take the maximum from -∞ over a finite family, compare with 0. The
    result is the bit 1 iff some member's bit is 1. (`one`, `zero`, `bot` are the values the three patterns denote.) -/
theorem max_select_gt_zero {n : Nat} (f : Fin n → BitVec 1) (one zero bot : EReal) (h1 : one = 1) (h0 : zero = 0)
    (hb : bot = ⊥) :
    Ideal.cmp .ogt ((Finset.univ : Finset (Fin n)).fold max bot (fun k => Scalar.select (f k) one zero)) zero = 1#1
      ↔ ∃ k, f k = 1#1 := by
  subst h1 h0 hb
  rw [cmp_ogt_eq_one, Finset.lt_fold_max]
  constructor
  · rintro (h | ⟨k, -, hk⟩)
    · exact absurd h (by simp)
    · refine ⟨k, ?_⟩
      by_contra hne
      have e : Scalar.select (f k) (1 : EReal) 0 = 0 := if_neg hne
      rw [e] at hk
      exact lt_irrefl _ hk
  · rintro ⟨k, hk⟩
    refine Or.inr ⟨k, Finset.mem_univ _, ?_⟩
    have e : Scalar.select (f k) (1 : EReal) 0 = 1 := if_pos hk
    rw [e]
    exact zero_lt_one

end Cert.AnyBit

end
-- ==== Proof.Consts.lean ====
/-
  The float constants the two programs spell, as the extended reals their f32 patterns denote: the threshold 1/2, the
  weights 1, 9 and 10, the slice multiplier 5, and zero. Stated once, so that no other module unfolds a pattern.
-/
import Idealize.ShloMosaic.PureOps.Ideal
import Idealize.ShloMosaic.PureOps.Ideal.Laws

noncomputable section

namespace Cert.Consts

open Idealize.ShloMosaic

/-- The pattern of `0.5` denotes the real 1/2. -/
theorem ofBits_half : Ideal.ofBits .f32 0x3F000000#32 = ((1 / 2 : ℝ) : EReal) := by
  simp [Ideal.ofBits, Ideal.ieee, -EReal.coe_mul]; norm_num

/-- The pattern of `1.0` denotes the real 1. -/
theorem ofBits_one : Ideal.ofBits .f32 0x3F800000#32 = ((1 : ℝ) : EReal) := by
  simp [Ideal.ofBits, Ideal.ieee, -EReal.coe_mul]; norm_num

/-- The pattern of `9.0` denotes the real 9. -/
theorem ofBits_nine : Ideal.ofBits .f32 0x41100000#32 = ((9 : ℝ) : EReal) := by
  simp [Ideal.ofBits, Ideal.ieee, -EReal.coe_mul]; norm_num

/-- The pattern of `10.0` denotes the real 10. -/
theorem ofBits_ten : Ideal.ofBits .f32 0x41200000#32 = ((10 : ℝ) : EReal) := by
  simp [Ideal.ofBits, Ideal.ieee, -EReal.coe_mul]; norm_num

/-- The pattern of `5.0` denotes the real 5. -/
theorem ofBits_five : Ideal.ofBits .f32 0x40A00000#32 = ((5 : ℝ) : EReal) := by
  simp [Ideal.ofBits, Ideal.ieee, -EReal.coe_mul]; norm_num

/-- The pattern of `+0.0` denotes the real 0. -/
theorem ofBits_zero : Ideal.ofBits .f32 0x00000000#32 = ((0 : ℝ) : EReal) := by
  rw [Ideal.ofBits_zero_f32]; rfl

end Cert.Consts

end
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.KAny.lean ====
/-
  The kernel body's two maximum-reductions as existentials.

  The body selects 1 or 0 by a bit array, takes the maximum from -∞ along an axis and compares with 0. Along the
  columns of the 512 x 512 slice the result at row h is the bit "some column of row h is set"; along the rows of the
  512 x 1 column it is the bit "some row is set".
-/
import Idealize.ShloMosaic.PureOps.Ideal
import Idealize.ShloMosaic.PureOps.Ideal.Laws
import Idealize.ShloMosaic.Lib.ValueIdx
import proofs.«415915_j10514079940984_3_alg».proof.Proof.KLayout
import proofs.«415915_j10514079940984_3_alg».proof.Proof.AnyBit
import proofs.«415915_j10514079940984_3_alg».proof.Proof.Consts
import proofs.«415915_j10514079940984_3_alg».proof.Proof.LibReal

noncomputable section

namespace Cert.KAny

open Idealize.ShloMosaic Idealize.ShloMosaic.ValueIdx Cert.KLayout Cert.AnyBit

/-- The pattern of 1.0 is the extended real 1, … -/
theorem one_eq : Ideal.ofBits .f32 0x3F800000#32 = (1 : EReal) := Cert.Consts.ofBits_one.trans EReal.coe_one
/-- … that of +0.0 is 0, … -/
theorem zero_eq : Ideal.ofBits .f32 0x00000000#32 = (0 : EReal) := Ideal.ofBits_zero_f32
/-- … and that of -∞ is the bottom. -/
theorem bot_eq : FloatOps.ofBits (F := Ideal) .f32 0xFF800000#32 = (⊥ : EReal) := Cert.LibReal.ofBits_negInf_f32

/-- Along the columns: "the maximum over row h of (bit ? 1 : 0) is above 0" is "some column of row h has its bit set". -/
theorem row_any (b : IVec B2 1) (one zero : EReal) (h1 : one = 1) (h0 : zero = 0) (hr : B2.Reduces [1] R1)
    (hφ : FKind.Formats .f32) (hacc : (0xFF800000#32 : BitVec 32) = FKind.maximumf.neutral .f32 hφ) (h : Fin 512) :
    Ideal.cmp .ogt (multiReduction (F := Ideal) .maximumf [1] R1 (select b (broadcast B2 one) (broadcast B2 zero)) 0xFF800000#32 hr hφ hacc (ix1 h)) zero = 1#1
      ↔ ∃ w : Fin 512, b (ix2 h w) = 1#1 := by
  rw [Ideal.multiReduction_maximumf_single]
  have e : (select b (broadcast B2 one) (broadcast B2 zero)) ∘ hr.lift (ix1 h) = fun w : Fin 512 => Scalar.select (b (ix2 h w)) one zero :=
    funext fun w => congrArg (fun i => Scalar.select (b i) one zero) (lift_columns hr h w)
  rw [e]
  exact max_select_gt_zero (fun w => b (ix2 h w)) one zero _ h1 h0 bot_eq

/-- Along the rows: "the maximum over the column of (bit ? 1 : 0) is above 0" is "some row has its bit set". -/
theorem col_any (b : IVec R2 1) (one zero : EReal) (h1 : one = 1) (h0 : zero = 0) (hr : R2.Reduces [0] U1)
    (hφ : FKind.Formats .f32) (hacc : (0xFF800000#32 : BitVec 32) = FKind.maximumf.neutral .f32 hφ) :
    Ideal.cmp .ogt (multiReduction (F := Ideal) .maximumf [0] U1 (select b (broadcast R2 one) (broadcast R2 zero)) 0xFF800000#32 hr hφ hacc (ix1 (0 : Fin 1))) zero = 1#1
      ↔ ∃ h : Fin 512, b (ix2 h (0 : Fin 1)) = 1#1 := by
  rw [Ideal.multiReduction_maximumf_single]
  have e : (select b (broadcast R2 one) (broadcast R2 zero)) ∘ hr.lift (ix1 (0 : Fin 1)) = fun h : Fin 512 => Scalar.select (b (ix2 h (0 : Fin 1))) one zero :=
    funext fun h => congrArg (fun i => Scalar.select (b i) one zero) (lift_rows hr h)
  rw [e]
  exact max_select_gt_zero (fun h => b (ix2 h (0 : Fin 1))) one zero _ h1 h0 bot_eq

/-- The host's reading of the kernel's indicator: a bit widened to 32 bits, converted to a float (1.0 or 0.0) and
    compared with 1/2 gives the bit back. -/
theorem bit_roundtrip (b : BitVec 1) :
    Ideal.cmp .ogt (FloatOps.sitofp (F := Ideal) .f32 (b.setWidth 32)) (Ideal.ofBits .f32 0x3F000000#32) = b := by
  rw [Cert.Consts.ofBits_half]
  rcases BitVec.eq_zero_or_eq_one b with rfl | rfl
  · refine bit_ext ?_
    rw [cmp_ogt_eq_one]
    show ((1 / 2 : ℝ) : EReal) < (((0 : ℤ) : ℝ) : EReal) ↔ (0#1 : BitVec 1) = 1#1
    constructor
    · intro h
      rw [EReal.coe_lt_coe_iff] at h
      norm_num at h
    · intro h
      exact absurd h (by decide)
  · refine bit_ext ?_
    rw [cmp_ogt_eq_one]
    show ((1 / 2 : ℝ) : EReal) < (((1 : ℤ) : ℝ) : EReal) ↔ (1#1 : BitVec 1) = 1#1
    constructor
    · intro _; rfl
    · intro _
      rw [EReal.coe_lt_coe_iff]
      norm_num

end Cert.KAny

end
-- ==== Proof.KernelPayload.lean ====
/-
  What the kernel body stores, as functions of the slice's two blocks.

  `t` is the target's 1 x 1 x 512 x 512 block of a slice and `p` the prediction's. Into the first output tile the body
  stores, at every entry, the sum over the slice's rows and columns of (p - t)^2 * (10 if t > 1/2 else 1); into the
  second, at every entry, 1.0 if some pixel of the slice has t > 1/2 and 0.0 otherwise — computed as a bit, widened to
  32 bits and converted.
-/
import proofs.«415915_j10514079940984_3_alg».proof.Proof.Gen.KernelIdeal.Skeleton
import Idealize.ShloMosaic.PureOps.Ideal.Laws
import Idealize.ShloMosaic.Lib.ValueIdx
import Idealize.ShloMosaic.Lib.Pipeline.Value
import proofs.«415915_j10514079940984_3_alg».proof.Proof.KLayout
import proofs.«415915_j10514079940984_3_alg».proof.Proof.KAny
import proofs.«415915_j10514079940984_3_alg».proof.Proof.AnyBit

noncomputable section

open scoped BigOperators

namespace Cert.KernelIdeal.Payload

open Cert.KernelIdeal Cert.KernelIdeal.Gen Idealize.ShloMosaic Idealize.ShloMosaic.ValueIdx Cert.KLayout Cert.KAny Cert.AnyBit

/-- Pixel (h, w) of the slice is foreground: its target exceeds 1/2. -/
def tbit (t : Vec Ideal S1x1x512x512 .f32) (h w : Fin 512) : BitVec 1 :=
  Ideal.cmp .ogt (t (ix4 (0 : Fin 1) (0 : Fin 1) h w)) (Ideal.ofBits .f32 0x3F000000#32)

/-- Pixel (h, w)'s weighted squared error. -/
def wpix (t p : Vec Ideal S1x1x512x512 .f32) (h w : Fin 512) : EReal :=
  (p (ix4 (0 : Fin 1) (0 : Fin 1) h w) - t (ix4 (0 : Fin 1) (0 : Fin 1) h w))
    * (p (ix4 (0 : Fin 1) (0 : Fin 1) h w) - t (ix4 (0 : Fin 1) (0 : Fin 1) h w))
    * Scalar.select (tbit t h w) (Ideal.ofBits .f32 0x41200000#32) (Ideal.ofBits .f32 0x3F800000#32)

/-- The first tile's payload at any entry: the slice's sum of weighted squared errors, rows outermost. -/
theorem pay6_apply (t p : Vec Ideal S1x1x512x512 .f32) (y : S8x128.Idx) :
    k0_pay6 (F := Ideal) t p y = ∑ h : Fin 512, ∑ w : Fin 512, wpix t p h w := by
  unfold k0_pay6 k0_pay4 k0_pay3
  dsimp only
  refine (unit_to_tile _ _ y).trans ?_
  rw [shapeCast_self]
  refine (unit_as_matrix _ _).trans ?_
  refine (Ideal.multiReduction_add_single _ _ _ _ _ (ix1 (0 : Fin 1))).trans ?_
  refine Finset.sum_congr rfl fun (h : Fin 512) _ => ?_
  refine (congrArg (shapeCast S512x1 _ _) (lift_rows _ h)).trans ?_
  refine (vector_as_column _ _ h).trans ?_
  refine (Ideal.multiReduction_add_single _ _ _ _ _ (ix1 h)).trans ?_
  refine Finset.sum_congr rfl fun (w : Fin 512) _ => ?_
  refine (congrArg _ (lift_columns _ h w)).trans ?_
  show (shapeCast S512x512 p _ (ix2 h w) - shapeCast S512x512 t _ (ix2 h w))
        * (shapeCast S512x512 p _ (ix2 h w) - shapeCast S512x512 t _ (ix2 h w))
      * Scalar.select (Ideal.cmp .ogt (shapeCast S512x512 t _ (ix2 h w)) (Ideal.ofBits .f32 0x3F000000#32))
          (Ideal.ofBits .f32 0x41200000#32) (Ideal.ofBits .f32 0x3F800000#32) = _
  rw [block_as_matrix, block_as_matrix]
  rfl

/-- The pattern of 1.0, as the float family spells it, is 1; that of +0.0 is 0. -/
theorem fone_eq : FloatOps.ofBits (F := Ideal) .f32 0x3F800000#32 = (1 : EReal) := one_eq
theorem fzero_eq : FloatOps.ofBits (F := Ideal) .f32 0x00000000#32 = (0 : EReal) := zero_eq

/-! ## The indicator, stage by stage

The body computes the slice's indicator in three stages, named here over arbitrary bit arrays: the pixels' bits; from
them the rows' bits ("some column of the row is set": select, maximum along columns, compare with 0, view as a column);
from those the slice's bit ("some row is set": the same along rows, viewed as 1 x 1). -/

/-- The pixels' foreground bits of a target block. -/
def pixelBits (t : Vec Ideal S1x1x512x512 .f32) : IVec S512x512 1 :=
  cmpf .ogt (shapeCast S512x512 t shapeCasts_S1x1x512x512_S512x512) (broadcast S512x512 (FloatOps.ofBits (F := Ideal) .f32 0x3F000000#32))

/-- The rows' bits from the pixels' bits. -/
def rowBits (b0 : IVec S512x512 1) : IVec S512x1 1 :=
  shapeCast S512x1
    (cmpf .ogt (multiReduction (F := Ideal) .maximumf [1] S512
        (select b0 (broadcast S512x512 (FloatOps.ofBits (F := Ideal) .f32 0x3F800000#32)) (broadcast S512x512 (FloatOps.ofBits (F := Ideal) .f32 0x00000000#32)))
        0xFF800000#32 reduces_S512x512_S512 (.inl rfl) rfl)
      (broadcast S512 (FloatOps.ofBits (F := Ideal) .f32 0x00000000#32)))
    shapeCasts_S512_S512x1

/-- The slice's bit from the rows' bits. -/
def sliceBit (b1 : IVec S512x1 1) : BitVec 1 :=
  shapeCast S1x1
    (cmpf .ogt (multiReduction (F := Ideal) .maximumf [0] S1
        (select b1 (broadcast S512x1 (FloatOps.ofBits (F := Ideal) .f32 0x3F800000#32)) (broadcast S512x1 (FloatOps.ofBits (F := Ideal) .f32 0x00000000#32)))
        0xFF800000#32 reduces_S512x1_S1 (.inl rfl) rfl)
      (broadcast S1 (FloatOps.ofBits (F := Ideal) .f32 0x00000000#32)))
    shapeCasts_S1_S1x1 (ix2 (0 : Fin 1) (0 : Fin 1))

/-- The second tile's payload at the entry it is broadcast from: the slice's bit, widened and converted. -/
theorem pay5_eq (t : Vec Ideal S1x1x512x512 .f32) :
    k0_pay5 (F := Ideal) t (ix2 (0 : Fin 1) (0 : Fin 1))
      = FloatOps.sitofp (F := Ideal) .f32 ((sliceBit (rowBits (pixelBits t))).setWidth 32) := rfl

/-- A pixel's bit is the comparison of the block's entry with 1/2. -/
theorem pixelBits_apply (t : Vec Ideal S1x1x512x512 .f32) (h w : Fin 512) : pixelBits t (ix2 h w) = tbit t h w := by
  unfold pixelBits tbit
  show Ideal.cmp .ogt (shapeCast S512x512 t shapeCasts_S1x1x512x512_S512x512 (ix2 h w)) (Ideal.ofBits .f32 0x3F000000#32) = _
  rw [block_as_matrix]

/-- A row's bit is set iff some pixel of the row is. -/
theorem rowBits_iff (b0 : IVec S512x512 1) (h : Fin 512) :
    rowBits b0 (ix2 h (0 : Fin 1)) = 1#1 ↔ ∃ w : Fin 512, b0 (ix2 h w) = 1#1 := by
  unfold rowBits
  rw [vector_as_column, cmpf_apply, Ideal.cmpf_def, broadcast_apply]
  exact row_any b0 _ _ fone_eq fzero_eq _ _ _ h

/-- The slice's bit is set iff some row's is. -/
theorem sliceBit_iff (b1 : IVec S512x1 1) :
    sliceBit b1 = 1#1 ↔ ∃ h : Fin 512, b1 (ix2 h (0 : Fin 1)) = 1#1 := by
  unfold sliceBit
  rw [unit_as_matrix, cmpf_apply, Ideal.cmpf_def, broadcast_apply]
  exact col_any b1 _ _ fone_eq fzero_eq _ _ _

/-- The slice's bit, from a target block, is set iff some pixel of the slice is foreground. -/
theorem sliceBit_spec (t : Vec Ideal S1x1x512x512 .f32) :
    sliceBit (rowBits (pixelBits t)) = 1#1 ↔ ∃ h w : Fin 512, tbit t h w = 1#1 := by
  refine (sliceBit_iff _).trans (exists_congr fun h => ?_)
  refine (rowBits_iff _ h).trans (exists_congr fun w => ?_)
  rw [pixelBits_apply]

end Cert.KernelIdeal.Payload

end
-- ==== Proof.SpecAny.lean ====
/-
  A slice's foreground bit, read: the `or` over the slice's pixels is set exactly when some pixel of the slice has its
  target above 1/2. The reduction drops the last two coordinates of a pixel's index, so the pixels that reduce into
  slice (a, b) are the (a, b, h, w).
-/
import Idealize.ShloMosaic.PureOps.Ideal
import Idealize.ShloMosaic.PureOps.Reduce
import Idealize.ShloMosaic.Lib.ValueIdx
import proofs.«415915_j10514079940984_3_alg».proof.Proof.Spec
import proofs.«415915_j10514079940984_3_alg».proof.Proof.AnyBit

noncomputable section

namespace Cert.Spec

open Idealize.ShloMosaic Idealize.ShloMosaic.ValueIdx

/-- The slices' foreground bit at slice (a, b) is set iff some pixel (a, b, h, w) exceeds 1/2. -/
theorem sliceAny_iff (T : FVec Ideal S4 .f32) (a : Fin 16) (b : Fin 13) :
    sliceAny (F := Ideal) T (ix2 a b) = 1#1
      ↔ ∃ h w : Fin 512, Ideal.cmp .ogt (T (ix4 a b h w)) (Ideal.ofBits .f32 0x3F000000#32) = 1#1 := by
  unfold sliceAny
  rw [Cert.AnyBit.reduce_ori_eq_one _ _ hr23 hS0 rfl]
  constructor
  · rintro ⟨i, hi, hx⟩
    have e0 : ((hr23.drop i) 0 : Nat) = (i 0 : Nat) := hr23.drop_apply_val_of_eq i 0 0
    have e1 : ((hr23.drop i) 1 : Nat) = (i 1 : Nat) := hr23.drop_apply_val_of_eq i 1 1
    have a0 : ((hr23.drop i) 0 : Nat) = a.val := by rw [hi]
    have b0 : ((hr23.drop i) 1 : Nat) = b.val := by rw [hi]
    have ei : i = ix4 a b (i 2) (i 3) := by
      funext x
      match x with
      | ⟨0, _⟩ => exact Fin.ext (e0.symm.trans a0)
      | ⟨1, _⟩ => exact Fin.ext (e1.symm.trans b0)
      | ⟨2, _⟩ => rfl
      | ⟨3, _⟩ => rfl
    have hx' : Ideal.cmp .ogt (T i) (Ideal.ofBits .f32 0x3F000000#32) = 1#1 := hx
    rw [ei] at hx'
    exact ⟨i 2, i 3, hx'⟩
  · rintro ⟨h, w, hx⟩
    refine ⟨ix4 a b h w, ?_, hx⟩
    funext x
    match x with
    | ⟨0, _⟩ => exact Fin.ext (hr23.drop_apply_val_of_eq (ix4 a b h w) 0 0)
    | ⟨1, _⟩ => exact Fin.ext (hr23.drop_apply_val_of_eq (ix4 a b h w) 1 1)

end Cert.Spec

end
-- ==== Proof.KernelArrays.lean ====
/-
  What the kernel's two output arrays hold after the region.

  The grid is 16 x 13, one point per slice (b, d). Point (b, d) reads block (b, d, 0, 0) of each input — the slice — and
  writes block (b, d, 0, 0) of each output, an 8 x 128 tile. The blocks of all points tile each output array, so after
  the region the first output holds, at every entry of tile (b, d), the slice's sum of weighted squared errors, and the
  second holds there the slice's foreground bit as 1.0 or 0.0.
-/
import proofs.«415915_j10514079940984_3_alg».proof.Proof.Gen.KernelIdeal.Frame
import Idealize.ShloMosaic.Lib.Pipeline.Value
import proofs.«415915_j10514079940984_3_alg».proof.Proof.KernelPayload
import proofs.«415915_j10514079940984_3_alg».proof.Proof.Spec
import proofs.«415915_j10514079940984_3_alg».proof.Proof.AnyBit
import proofs.«415915_j10514079940984_3_alg».proof.Proof.SpecAny

set_option maxRecDepth 16384

noncomputable section

open scoped BigOperators

namespace Cert.KernelIdeal.Arrays

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat Cfg Window)
open Cert.KLayout Cert.AnyBit

variable (m : (ℓ : Loc nD τ sig) → Buf (Elt Ideal) ℓ)

/-- The two argument arrays as the region finds them, and a point's two input blocks, at their literal types. -/
abbrev parr (c : Dev nD) : FVec Ideal Cert.Spec.S4 .f32 := V m c main_arg0
abbrev tarr (c : Dev nD) : FVec Ideal Cert.Spec.S4 .f32 := V m c main_arg1
abbrev pblk (c : Dev nD) (t : Fin cfg0.N) : Vec Ideal S1x1x512x512 .f32 := iblk m c 0 t
abbrev tblk (c : Dev nD) (t : Fin cfg0.N) : Vec Ideal S1x1x512x512 .f32 := iblk m c 1 t

theorem hz4 : (![0, 0, 0, 0] : Fin 4 → Nat) = fun _ => 0 := funext fun a => by fin_cases a <;> rfl

/-- The printed index maps, decided over the grid: all four windows sit at block (b, d, 0, 0) of their arrays, with
    (b, d) in range. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_3.index t (0 : Fin 4) = win0_2.index t (0 : Fin 4) ∧ win0_3.index t (1 : Fin 4) = win0_2.index t (1 : Fin 4)
    ∧ win0_3.index t (2 : Fin 4) = 0 ∧ win0_3.index t (3 : Fin 4) = 0
    ∧ win0_2.index t (2 : Fin 4) = 0 ∧ win0_2.index t (3 : Fin 4) = 0
    ∧ win0_2.index t (0 : Fin 4) < 16 ∧ win0_2.index t (1 : Fin 4) < 13 :=
  (by decide +kernel : ∀ t : Fin grid0.N, _)

/-- Every slice is some point's. -/
theorem idx_onto : ∀ (q0 : Fin 16) (q1 : Fin 13), ∃ t : Fin cfg0.N,
    win0_2.index t (0 : Fin 4) = q0.val ∧ win0_2.index t (1 : Fin 4) = q1.val :=
  (by decide +kernel : ∀ (q0 : Fin 16) (q1 : Fin 13), ∃ t : Fin grid0.N,
    win0_2.index t (0 : Fin 4) = q0.val ∧ win0_2.index t (1 : Fin 4) = q1.val)

/-- Entry (0, 0, h, w) of point t's target block is entry (b, d, h, w) of the target array, (b, d) the point's slice. -/
theorem tblk_apply (c : Dev nD) (t : Fin cfg0.N) (h w : Fin 512) (a : Fin 16) (b : Fin 13)
    (ha : a.val = win0_2.index t (0 : Fin 4)) (hb : b.val = win0_2.index t (1 : Fin 4)) :
    tblk m c t (ix4 (0 : Fin 1) (0 : Fin 1) h w) = tarr m c (ix4 a b h w) := by
  obtain ⟨e00, e01, e02, e03, e10, e11, e12, e13, -⟩ := idx_facts t
  show V m c main_arg1 (((cfg0.win 1).blk t).view.emb (ix4 (0 : Fin 1) (0 : Fin 1) h w)) = V m c main_arg1 (ix4 a b h w)
  refine congrArg (V m c main_arg1) (funext fun x => Fin.ext ?_)
  match x with
  | ⟨0, _⟩ => show win0_1.index t (0 : Fin 4) * 1 + 1 * 0 = a.val; omega
  | ⟨1, _⟩ => show win0_1.index t (1 : Fin 4) * 1 + 1 * 0 = b.val; omega
  | ⟨2, _⟩ => show win0_1.index t (2 : Fin 4) * 512 + 1 * h.val = h.val; omega
  | ⟨3, _⟩ => show win0_1.index t (3 : Fin 4) * 512 + 1 * w.val = w.val; omega

/-- The same for the prediction. -/
theorem pblk_apply (c : Dev nD) (t : Fin cfg0.N) (h w : Fin 512) (a : Fin 16) (b : Fin 13)
    (ha : a.val = win0_2.index t (0 : Fin 4)) (hb : b.val = win0_2.index t (1 : Fin 4)) :
    pblk m c t (ix4 (0 : Fin 1) (0 : Fin 1) h w) = parr m c (ix4 a b h w) := by
  obtain ⟨e00, e01, e02, e03, -⟩ := idx_facts t
  show V m c main_arg0 (((cfg0.win 0).blk t).view.emb (ix4 (0 : Fin 1) (0 : Fin 1) h w)) = V m c main_arg0 (ix4 a b h w)
  refine congrArg (V m c main_arg0) (funext fun x => Fin.ext ?_)
  match x with
  | ⟨0, _⟩ => show win0_0.index t (0 : Fin 4) * 1 + 1 * 0 = a.val; omega
  | ⟨1, _⟩ => show win0_0.index t (1 : Fin 4) * 1 + 1 * 0 = b.val; omega
  | ⟨2, _⟩ => show win0_0.index t (2 : Fin 4) * 512 + 1 * h.val = h.val; omega
  | ⟨3, _⟩ => show win0_0.index t (3 : Fin 4) * 512 + 1 * w.val = w.val; omega

/-! ## The two output arrays -/

/-- The first output array after the region: the slice's sum at every entry of the slice's tile. -/
def sumArr (c : Dev nD) : FVec Ideal S16x13x8x128 .f32 :=
  fun i => Cert.Spec.sliceSum (parr m c) (tarr m c) (ix2 (i 0) (i 1))

/-- The second output array after the region: the slice's foreground bit, as 1.0 or 0.0, at every entry of its tile. -/
def bitArr (c : Dev nD) : FVec Ideal S16x13x8x128 .f32 :=
  fun i => FloatOps.sitofp (F := Ideal) .f32 ((Cert.Spec.sliceAny (F := Ideal) (tarr m c) (ix2 (i 0) (i 1))).setWidth 32)

/-- Entry z of point t's output tile is entry (b, d, z2, z3) of the output array, (b, d) the point's slice. -/
theorem emb2 (t : Fin cfg0.N) (z : S1x1x8x128.Idx) (a : Fin 16) (b : Fin 13)
    (ha : a.val = win0_2.index t (0 : Fin 4)) (hb : b.val = win0_2.index t (1 : Fin 4)) :
    ((cfg0.win 2).blk t).view.emb z = ix4 a b (z 2) (z 3) := by
  obtain ⟨-, -, -, -, -, -, -, -, -, -, -, -, e22, e23, -⟩ := idx_facts t
  have hz0 : (z 0).val = 0 := by have : (z 0).val < 1 := (z 0).isLt; omega
  have hz1 : (z 1).val = 0 := by have : (z 1).val < 1 := (z 1).isLt; omega
  funext x
  apply Fin.ext
  match x with
  | ⟨0, _⟩ => show win0_2.index t (0 : Fin 4) * 1 + 1 * (z 0).val = a.val; omega
  | ⟨1, _⟩ => show win0_2.index t (1 : Fin 4) * 1 + 1 * (z 1).val = b.val; omega
  | ⟨2, _⟩ => show win0_2.index t (2 : Fin 4) * 8 + 1 * (z 2).val = (z 2).val; omega
  | ⟨3, _⟩ => show win0_2.index t (3 : Fin 4) * 128 + 1 * (z 3).val = (z 3).val; omega

theorem emb3 (t : Fin cfg0.N) (z : S1x1x8x128.Idx) (a : Fin 16) (b : Fin 13)
    (ha : a.val = win0_2.index t (0 : Fin 4)) (hb : b.val = win0_2.index t (1 : Fin 4)) :
    ((cfg0.win 3).blk t).view.emb z = ix4 a b (z 2) (z 3) := by
  obtain ⟨-, -, -, -, -, -, -, -, e30, e31, e32, e33, -⟩ := idx_facts t
  have hz0 : (z 0).val = 0 := by have : (z 0).val < 1 := (z 0).isLt; omega
  have hz1 : (z 1).val = 0 := by have : (z 1).val < 1 := (z 1).isLt; omega
  funext x
  apply Fin.ext
  match x with
  | ⟨0, _⟩ => show win0_3.index t (0 : Fin 4) * 1 + 1 * (z 0).val = a.val; omega
  | ⟨1, _⟩ => show win0_3.index t (1 : Fin 4) * 1 + 1 * (z 1).val = b.val; omega
  | ⟨2, _⟩ => show win0_3.index t (2 : Fin 4) * 8 + 1 * (z 2).val = (z 2).val; omega
  | ⟨3, _⟩ => show win0_3.index t (3 : Fin 4) * 128 + 1 * (z 3).val = (z 3).val; omega

/-- A pixel's weighted squared error in point t's blocks is the arrays' at (b, d, h, w). -/
theorem wpix_eq (c : Dev nD) (t : Fin cfg0.N) (h w : Fin 512) (a : Fin 16) (b : Fin 13)
    (ha : a.val = win0_2.index t (0 : Fin 4)) (hb : b.val = win0_2.index t (1 : Fin 4)) :
    wpix (tblk m c t) (pblk m c t) h w = Cert.Spec.wsq (parr m c) (tarr m c) (ix4 a b h w) := by
  unfold wpix tbit Cert.Spec.wsq
  rw [tblk_apply m c t h w a b ha hb, pblk_apply m c t h w a b ha hb]

/-- WHAT POINT t WRITES BACK to the first output: its tile of `sumArr`. -/
theorem flushed2_eq (c : Dev nD) (t : Fin cfg0.N) :
    (dats m 0 c).flushed 2 t = ((cfg0.win 2).blk t).view.read (Elt Ideal) (sumArr m c) := by
  show (cfg0.win 2).cut (grid0.coords t) ((dats m 0 c).after 2 t) = _
  rw [after0_2]
  unfold out0_2
  rw [View.canon_unit_zero hz4]
  simp only [View.ld_unit_zero (S := S1x1x512x512) hz4]
  obtain ⟨-, -, -, -, -, -, -, -, -, -, -, -, -, -, lt0, lt1⟩ := idx_facts t
  obtain ⟨a, ha⟩ : ∃ a : Fin 16, a.val = win0_2.index t (0 : Fin 4) := ⟨⟨_, lt0⟩, rfl⟩
  obtain ⟨b, hb⟩ : ∃ b : Fin 13, b.val = win0_2.index t (1 : Fin 4) := ⟨⟨_, lt1⟩, rfl⟩
  funext z
  show k0_pay1 (k0_pay6 (tblk m c t) (pblk m c t)) z = sumArr m c (((cfg0.win 2).blk t).view.emb z)
  refine Eq.trans ?_ (congrArg (sumArr m c) (emb2 t z a b ha hb)).symm
  unfold k0_pay1
  refine (tile_as_block _ _ z).trans ?_
  refine (pay6_apply (tblk m c t) (pblk m c t) (ix2 (z 2) (z 3))).trans ?_
  show _ = ∑ h : Fin 512, ∑ w : Fin 512, Cert.Spec.wsq (parr m c) (tarr m c) (ix4 a b h w)
  exact Finset.sum_congr rfl fun h _ => Finset.sum_congr rfl fun w _ => wpix_eq m c t h w a b ha hb

/-- WHAT POINT t WRITES BACK to the second output: its tile of `bitArr`. -/
theorem flushed3_eq (c : Dev nD) (t : Fin cfg0.N) :
    (dats m 0 c).flushed 3 t = ((cfg0.win 3).blk t).view.read (Elt Ideal) (bitArr m c) := by
  show (cfg0.win 3).cut (grid0.coords t) ((dats m 0 c).after 3 t) = _
  rw [after0_3]
  unfold out0_3
  rw [View.canon_unit_zero hz4]
  simp only [View.ld_unit_zero (S := S1x1x512x512) hz4]
  obtain ⟨-, -, -, -, -, -, -, -, -, -, -, -, -, -, lt0, lt1⟩ := idx_facts t
  obtain ⟨a, ha⟩ : ∃ a : Fin 16, a.val = win0_2.index t (0 : Fin 4) := ⟨⟨_, lt0⟩, rfl⟩
  obtain ⟨b, hb⟩ : ∃ b : Fin 13, b.val = win0_2.index t (1 : Fin 4) := ⟨⟨_, lt1⟩, rfl⟩
  funext z
  show k0_pay2 (k0_pay5 (tblk m c t)) z = bitArr m c (((cfg0.win 3).blk t).view.emb z)
  refine Eq.trans ?_ (congrArg (bitArr m c) (emb3 t z a b ha hb)).symm
  unfold k0_pay2
  refine (tile_as_block _ _ z).trans ?_
  refine (unit_to_tile _ _ _).trans ?_
  rw [shapeCast_self]
  refine (pay5_eq (tblk m c t)).trans ?_
  show FloatOps.sitofp (F := Ideal) .f32 ((sliceBit (rowBits (pixelBits (tblk m c t)))).setWidth 32)
    = FloatOps.sitofp (F := Ideal) .f32 ((Cert.Spec.sliceAny (F := Ideal) (tarr m c) (ix2 a b)).setWidth 32)
  refine congrArg (fun x : BitVec 1 => FloatOps.sitofp (F := Ideal) .f32 (x.setWidth 32)) (bit_ext ?_)
  rw [sliceBit_spec, Cert.Spec.sliceAny_iff]
  refine exists_congr fun h => exists_congr fun w => ?_
  unfold tbit
  rw [tblk_apply m c t h w a b ha hb]

/-- An index of an output array is in point t's tile iff each coordinate is in the tile's range on its axis. -/
theorem mem_blk2 (t : Fin cfg0.N) (i : S16x13x8x128.Idx) :
    i ∈ ((cfg0.win 2).blk t).view.set ↔ ∀ a : Fin 4, win0_2.index t a * S1x1x8x128.size a ≤ (i a).val
      ∧ (i a).val < win0_2.index t a * S1x1x8x128.size a + S1x1x8x128.size a := by
  show i ∈ ((View.whole main_v0_0).slice (win0_2.rect t)).set ↔ _
  rw [View.set_slice_whole, Rect.mem_set_unit]
  exact Iff.rfl

theorem mem_blk3 (t : Fin cfg0.N) (i : S16x13x8x128.Idx) :
    i ∈ ((cfg0.win 3).blk t).view.set ↔ ∀ a : Fin 4, win0_3.index t a * S1x1x8x128.size a ≤ (i a).val
      ∧ (i a).val < win0_3.index t a * S1x1x8x128.size a + S1x1x8x128.size a := by
  show i ∈ ((View.whole main_v0_1).slice (win0_3.rect t)).set ↔ _
  rw [View.set_slice_whole, Rect.mem_set_unit]
  exact Iff.rfl

/-- The tiles cover the first output array: index i lies in the tile of the point whose slice is (i0, i1). -/
theorem cover2 (i : S16x13x8x128.Idx) :
    ∃ t : Fin cfg0.N, (cfg0.win 2).flush t = true ∧ i ∈ ((cfg0.win 2).blk t).view.set := by
  have i0 : (i 0).val < 16 := (i 0).isLt
  have i1 : (i 1).val < 13 := (i 1).isLt
  have i2 : (i 2).val < 8 := (i 2).isLt
  have i3 : (i 3).val < 128 := (i 3).isLt
  obtain ⟨t, h0, h1⟩ := idx_onto ⟨(i 0).val, i0⟩ ⟨(i 1).val, i1⟩
  obtain ⟨-, -, -, -, -, -, -, -, -, -, -, -, e22, e23, -⟩ := idx_facts t
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1
              have h0' : win0_2.index t (0 : Fin 4) = (i 0).val := h0
              omega
  | ⟨1, _⟩ => show win0_2.index t (1 : Fin 4) * 1 ≤ (i 1).val ∧ (i 1).val < win0_2.index t (1 : Fin 4) * 1 + 1
              have h1' : win0_2.index t (1 : Fin 4) = (i 1).val := h1
              omega
  | ⟨2, _⟩ => show win0_2.index t (2 : Fin 4) * 8 ≤ (i 2).val ∧ (i 2).val < win0_2.index t (2 : Fin 4) * 8 + 8
              omega
  | ⟨3, _⟩ => show win0_2.index t (3 : Fin 4) * 128 ≤ (i 3).val ∧ (i 3).val < win0_2.index t (3 : Fin 4) * 128 + 128
              omega

theorem cover3 (i : S16x13x8x128.Idx) :
    ∃ t : Fin cfg0.N, (cfg0.win 3).flush t = true ∧ i ∈ ((cfg0.win 3).blk t).view.set := by
  have i0 : (i 0).val < 16 := (i 0).isLt
  have i1 : (i 1).val < 13 := (i 1).isLt
  have i2 : (i 2).val < 8 := (i 2).isLt
  have i3 : (i 3).val < 128 := (i 3).isLt
  obtain ⟨t, h0, h1⟩ := idx_onto ⟨(i 0).val, i0⟩ ⟨(i 1).val, i1⟩
  obtain ⟨-, -, -, -, -, -, -, -, e30, e31, e32, e33, -⟩ := idx_facts t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1
              have h0' : win0_2.index t (0 : Fin 4) = (i 0).val := h0
              omega
  | ⟨1, _⟩ => show win0_3.index t (1 : Fin 4) * 1 ≤ (i 1).val ∧ (i 1).val < win0_3.index t (1 : Fin 4) * 1 + 1
              have h1' : win0_2.index t (1 : Fin 4) = (i 1).val := h1
              omega
  | ⟨2, _⟩ => show win0_3.index t (2 : Fin 4) * 8 ≤ (i 2).val ∧ (i 2).val < win0_3.index t (2 : Fin 4) * 8 + 8
              omega
  | ⟨3, _⟩ => show win0_3.index t (3 : Fin 4) * 128 ≤ (i 3).val ∧ (i 3).val < win0_3.index t (3 : Fin 4) * 128 + 128
              omega

/-- THE FIRST OUTPUT ARRAY after the region. -/
theorem sum_array (c : Dev nD) : (dats m 0 c).arrAt 2 cfg0.N = sumArr m c :=
  (dats m 0 c).arrAt_eq_of_cover 2 (sumArr m c) (fun t _ => flushed2_eq m c t) cover2

/-- THE SECOND OUTPUT ARRAY after the region. -/
theorem bit_array (c : Dev nD) : (dats m 0 c).arrAt 3 cfg0.N = bitArr m c :=
  (dats m 0 c).arrAt_eq_of_cover 3 (bitArr m c) (fun t _ => flushed3_eq m c t) cover3

end Cert.KernelIdeal.Arrays

end
-- ==== Proof.KernelTail.lean ====
/-
  The lines of @main after the kernel: from the two output arrays to the result.

  Thirty-eight host operations follow the region. They are read in three stretches, each over an arbitrary valuation
  of the buffers: the first seven take entry (b, d, 0, 0) of each output tile — a slice and a reshape — and compare the
  indicator with 1/2, which gives the slices' sums and the slices' foreground bits; the next twenty-six turn the bits
  into the slice multiplier, by the same operations as the reference; the last five multiply, sum over the slices and
  divide by the pixel count.
-/
import proofs.«415915_j10514079940984_3_alg».proof.Proof.Gen.KernelIdeal.Frame
import proofs.«415915_j10514079940984_3_alg».proof.Proof.Spec

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- Entry (b, d, 0, 0) of every 8 x 128 tile of an output array, as a 16 x 13 array. -/
def tileHead (X : FVec F S16x13x8x128 .f32) : FVec F S16x13 .f32 :=
  shapeCast S16x13 (extractStridedSlice S16x13x1x1 ![0, 0, 0, 0] X slices_S16x13x8x128_S16x13x1x1_0_0_0_0) shapeCasts_S16x13x1x1_S16x13

/-- Operations 1–7 after the region. -/
abbrev tA : List (HloOp τ sig (Elt F)) :=
  [ StableHlo.unary main_v0_0 main_v1 ((extractStridedSlice S16x13x1x1 ![0, 0, 0, 0] · slices_S16x13x8x128_S16x13x1x1_0_0_0_0) : (⟨S16x13x8x128, .f32⟩ : BufTy).Contents (Elt F) → (⟨S16x13x1x1, .f32⟩ : BufTy).Contents (Elt F)),
    StableHlo.reshape main_v1 main_v2 rfl shapeCasts_S16x13x1x1_S16x13,
    StableHlo.unary main_v0_1 main_v3 ((extractStridedSlice S16x13x1x1 ![0, 0, 0, 0] · slices_S16x13x8x128_S16x13x1x1_0_0_0_0) : (⟨S16x13x8x128, .f32⟩ : BufTy).Contents (Elt F) → (⟨S16x13x1x1, .f32⟩ : BufTy).Contents (Elt F)),
    StableHlo.reshape main_v3 main_v4 rfl shapeCasts_S16x13x1x1_S16x13,
    StableHlo.nullary main_cst (constant S_ .f32 0x3F000000#32),
    StableHlo.unary main_cst main_v5 (broadcastInDim S16x13 ![] bcast_S_S16x13 : (⟨S_, .f32⟩ : BufTy).Contents (Elt F) → (⟨S16x13, .f32⟩ : BufTy).Contents (Elt F)),
    StableHlo.binary main_v4 main_v5 main_v6 (cmpf .ogt : (⟨S16x13, .f32⟩ : BufTy).Contents (Elt F) → (⟨S16x13, .f32⟩ : BufTy).Contents (Elt F) → (⟨S16x13, .i1⟩ : BufTy).Contents (Elt F)) ]

/-- Operations 8–33. -/
abbrev tB : List (HloOp τ sig (Elt F)) :=
  [ StableHlo.unary main_v6 main_v7 ((extractStridedSlice S16x12 ![0, 0] · slices_S16x13_S16x12_0_0) : (⟨S16x13, .i1⟩ : BufTy).Contents (Elt F) → (⟨S16x12, .i1⟩ : BufTy).Contents (Elt F)),
    StableHlo.nullary main_c (constantI S_ 32 0#32),
    StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S_, .i32⟩) (broadcastInDim S_ ![] bcast_S_S_),
    StableHlo.TRef.binary (.of main_c : StableHlo.TRef sig ⟨S_, .i32⟩) (.of main_call0_v0 : StableHlo.TRef sig ⟨S_, .i32⟩) (.of main_call0_v1 : StableHlo.TRef sig ⟨S_, .i1⟩) (cmpi .ne),
    StableHlo.TRef.unary (.of main_call0_v1 : StableHlo.TRef sig ⟨S_, .i1⟩) (.of main_call0_v2 : StableHlo.TRef sig ⟨S_, .i1⟩) id,
    StableHlo.TRef.binary (.of main_v7 : StableHlo.TRef sig ⟨S16x12, .i1⟩) (.of main_call0_v2 : StableHlo.TRef sig ⟨S_, .i1⟩) (.of main_v8 : StableHlo.TRef sig ⟨S16x13, .i1⟩) (fun x v => pad S16x13 ![0, 1] ![0, 0] ![0, 0] x v pads_S16x12_S16x13_000_100 h_S_),
    StableHlo.unary main_v6 main_v9 ((extractStridedSlice S16x12 ![0, 1] · slices_S16x13_S16x12_0_1) : (⟨S16x13, .i1⟩ : BufTy).Contents (Elt F) → (⟨S16x12, .i1⟩ : BufTy).Contents (Elt F)),
    StableHlo.nullary main_c_0 (constantI S_ 32 0#32),
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S_, .i32⟩) (broadcastInDim S_ ![] bcast_S_S_),
    StableHlo.TRef.binary (.of main_c_0 : StableHlo.TRef sig ⟨S_, .i32⟩) (.of main_call1_v0 : StableHlo.TRef sig ⟨S_, .i32⟩) (.of main_call1_v1 : StableHlo.TRef sig ⟨S_, .i1⟩) (cmpi .ne),
    StableHlo.TRef.unary (.of main_call1_v1 : StableHlo.TRef sig ⟨S_, .i1⟩) (.of main_call1_v2 : StableHlo.TRef sig ⟨S_, .i1⟩) id,
    StableHlo.TRef.binary (.of main_v9 : StableHlo.TRef sig ⟨S16x12, .i1⟩) (.of main_call1_v2 : StableHlo.TRef sig ⟨S_, .i1⟩) (.of main_v10 : StableHlo.TRef sig ⟨S16x13, .i1⟩) (fun x v => pad S16x13 ![0, 0] ![0, 1] ![0, 0] x v pads_S16x12_S16x13_000_010 h_S_),
    StableHlo.unary main_v6 main_v11 (noti : (⟨S16x13, .i1⟩ : BufTy).Contents (Elt F) → (⟨S16x13, .i1⟩ : BufTy).Contents (Elt F)),
    StableHlo.binary main_v8 main_v10 main_v12 (ori : (⟨S16x13, .i1⟩ : BufTy).Contents (Elt F) → (⟨S16x13, .i1⟩ : BufTy).Contents (Elt F) → (⟨S16x13, .i1⟩ : BufTy).Contents (Elt F)),
    StableHlo.binary main_v11 main_v12 main_v13 (andi : (⟨S16x13, .i1⟩ : BufTy).Contents (Elt F) → (⟨S16x13, .i1⟩ : BufTy).Contents (Elt F) → (⟨S16x13, .i1⟩ : BufTy).Contents (Elt F)),
    StableHlo.nullary main_cst_1 (constant S_ .f32 0x00000000#32),
    StableHlo.nullary main_cst_2 (constant S_ .f32 0x40A00000#32),
    StableHlo.TRef.unary (.of main_cst_1 : StableHlo.TRef sig ⟨S_, .f32⟩) (.of main_call2_v0 : StableHlo.TRef sig ⟨S16x13, .f32⟩) (broadcastInDim S16x13 ![] bcast_S_S16x13),
    StableHlo.TRef.unary (.of main_cst_2 : StableHlo.TRef sig ⟨S_, .f32⟩) (.of main_call2_v1 : StableHlo.TRef sig ⟨S16x13, .f32⟩) (broadcastInDim S16x13 ![] bcast_S_S16x13),
    StableHlo.TRef.ternary (.of main_v13 : StableHlo.TRef sig ⟨S16x13, .i1⟩) (.of main_call2_v0 : StableHlo.TRef sig ⟨S16x13, .f32⟩) (.of main_call2_v1 : StableHlo.TRef sig ⟨S16x13, .f32⟩) (.of main_v14 : StableHlo.TRef sig ⟨S16x13, .f32⟩) select,
    StableHlo.nullary main_cst_3 (constant S_ .f32 0x3F800000#32),
    StableHlo.TRef.unary (.of main_cst_3 : StableHlo.TRef sig ⟨S_, .f32⟩) (.of main_call3_v0 : StableHlo.TRef sig ⟨S16x13, .f32⟩) (broadcastInDim S16x13 ![] bcast_S_S16x13),
    StableHlo.TRef.ternary (.of main_v6 : StableHlo.TRef sig ⟨S16x13, .i1⟩) (.of main_call3_v0 : StableHlo.TRef sig ⟨S16x13, .f32⟩) (.of main_v14 : StableHlo.TRef sig ⟨S16x13, .f32⟩) (.of main_v15 : StableHlo.TRef sig ⟨S16x13, .f32⟩) select,
    StableHlo.unary main_v15 main_v16 (id : (⟨S16x13, .f32⟩ : BufTy).Contents (Elt F) → (⟨S16x13, .f32⟩ : BufTy).Contents (Elt F)) ]

/-- Operations 34–38. -/
abbrev tC : List (HloOp τ sig (Elt F)) :=
  [ StableHlo.binary main_v2 main_v16 main_v17 (mulf : (⟨S16x13, .f32⟩ : BufTy).Contents (Elt F) → (⟨S16x13, .f32⟩ : BufTy).Contents (Elt F) → (⟨S16x13, .f32⟩ : BufTy).Contents (Elt F)),
    StableHlo.nullary main_cst_4 (constant S_ .f32 0x00000000#32),
    StableHlo.binary main_v17 main_cst_4 main_v18 ((fun x v => Host.reduceAdd x v reducesTo_S16x13_S_d0_1 h_S_) : (⟨S16x13, .f32⟩ : BufTy).Contents (Elt F) → (⟨S_, .f32⟩ : BufTy).Contents (Elt F) → (⟨S_, .f32⟩ : BufTy).Contents (Elt F)),
    StableHlo.nullary main_cst_5 (constant S_ .f32 0x4C500000#32),
    StableHlo.binary main_v18 main_cst_5 main_v19 (Host.divf : (⟨S_, .f32⟩ : BufTy).Contents (Elt F) → (⟨S_, .f32⟩ : BufTy).Contents (Elt F) → (⟨S_, .f32⟩ : BufTy).Contents (Elt F)) ]

/-- The three stretches are the nine generated ones, concatenated. -/
theorem tail_split :
    List.flatten [hostOps1 (F := F), hostOps1_1, hostOps1_2, hostOps1_3, hostOps1_4, hostOps1_5, hostOps1_6, hostOps1_7, hostOps1_8]
      = tA ++ (tB ++ tC) := rfl

/-! ## The first stretch -/

theorem A_sum (V : Valuation τ sig (Elt F)) :
    after (tA (F := F)) V (Proc.devRef .tc main_v2) = tileHead (F := F) (V (Proc.devRef .tc main_v0_0)) := by
  after_results_simp
  generalize V (Proc.devRef .tc main_v0_0) = X
  rfl

theorem A_bits (V : Valuation τ sig (Elt F)) :
    after (tA (F := F)) V (Proc.devRef .tc main_v6)
      = cmpf .ogt (tileHead (F := F) (V (Proc.devRef .tc main_v0_1)))
          (broadcastInDim Cert.Spec.S2 ![] Cert.Spec.hb02 (constant (F := F) Cert.Spec.S0 .f32 0x3F000000#32)) := by
  after_results_simp
  generalize V (Proc.devRef .tc main_v0_1) = X
  rfl

/-! ## The second stretch -/

theorem B_mult (V : Valuation τ sig (Elt F)) :
    after (tB (F := F)) V (Proc.devRef .tc main_v16)
      = (Cert.Spec.sliceMult (F := F) (V (Proc.devRef .tc main_v6)) : FVec F Cert.Spec.S2 .f32) := by
  after_results_simp
  generalize V (Proc.devRef .tc main_v6) = h
  unfold Cert.Spec.sliceMult
  rfl

theorem B_sum (V : Valuation τ sig (Elt F)) :
    after (tB (F := F)) V (Proc.devRef .tc main_v2) = V (Proc.devRef .tc main_v2) := by
  after_results_simp

/-! ## The third stretch -/

theorem C_result (V : Valuation τ sig (Elt F)) :
    after (tC (F := F)) V (Proc.devRef .tc main_v19)
      = Cert.Spec.kernelTermM (F := F) (V (Proc.devRef .tc main_v2)) (V (Proc.devRef .tc main_v16)) := by
  after_results_simp
  generalize V (Proc.devRef .tc main_v2) = s
  generalize V (Proc.devRef .tc main_v16) = M
  rfl

/-! ## The whole tail -/

/-- THE TAIL'S RESULT: from any buffer contents, the result buffer ends at the kernel's closing arithmetic of the two
    output arrays' tile heads. -/
theorem result (V : Valuation τ sig (Elt F)) :
    after (List.flatten [hostOps1 (F := F), hostOps1_1, hostOps1_2, hostOps1_3, hostOps1_4, hostOps1_5, hostOps1_6, hostOps1_7, hostOps1_8])
        V (Proc.devRef .tc main_v19)
      = Cert.Spec.kernelTermOf (F := F) (tileHead (F := F) (V (Proc.devRef .tc main_v0_0)))
          (cmpf .ogt (tileHead (F := F) (V (Proc.devRef .tc main_v0_1)))
            (broadcastInDim Cert.Spec.S2 ![] Cert.Spec.hb02 (constant (F := F) Cert.Spec.S0 .f32 0x3F000000#32))) := by
  rw [tail_split, after_app, after_app, C_result, B_sum, B_mult, A_sum, A_bits]
  rfl

end Cert.KernelIdeal.Tail

end
-- ==== Proof.KernelValue.lean ====
/-
  The kernel's run, read: the result buffer ends at `kernelTerm` of the two argument arrays.

  The generated frame run leaves every array of the region at what the per-point data computes and every other buffer
  at what the lines after the region make of them. The two output arrays are the slices' sums and the slices' bits
  spread over their tiles; the tail takes each tile's head entry, so it sees the slices' sums themselves and, after
  comparing 1.0 / 0.0 with 1/2, the slices' bits themselves.
-/
import proofs.«415915_j10514079940984_3_alg».proof.Proof.KernelArrays
import proofs.«415915_j10514079940984_3_alg».proof.Proof.KernelTail
import proofs.«415915_j10514079940984_3_alg».proof.Proof.KAny

set_option maxRecDepth 16384

noncomputable section

namespace Cert.KernelIdeal.Value

open Cert.KernelIdeal Cert.KernelIdeal.Gen Cert.KernelIdeal.Arrays Cert.KernelIdeal.Tail
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The head entry of tile (a, b) of an output array is the array's entry (a, b, 0, 0). -/
theorem tileHead_apply (X : FVec Ideal S16x13x8x128 .f32) (a : Fin 16) (b : Fin 13) :
    tileHead (F := Ideal) X (ix2 a b) = X (ix4 a b (0 : Fin 8) (0 : Fin 128)) := by
  unfold tileHead
  refine (shapeCast_apply _ _ (ix2 a b) (ix4 a b (0 : Fin 1) (0 : Fin 1)) ?_).trans ?_
  · rw [Shape.rowMajor_val_four, Shape.rowMajor_val_two]
    show ((a.val * 13 + b.val) * 1 + 0) * 1 + 0 = a.val * 13 + b.val
    omega
  · refine extractStridedSlice_apply _ X _ (ix4 a b (0 : Fin 1) (0 : Fin 1)) (ix4 a b (0 : Fin 8) (0 : Fin 128)) ?_
    intro x
    match x with
    | ⟨0, _⟩ => show a.val = 0 + a.val; omega
    | ⟨1, _⟩ => show b.val = 0 + b.val; omega
    | ⟨2, _⟩ => rfl
    | ⟨3, _⟩ => rfl

/-- The tile heads of the first output array are the slices' sums. -/
theorem tileHead_sum (c : Dev nD) :
    tileHead (F := Ideal) (sumArr m c) = Cert.Spec.sliceSum (parr m c) (tarr m c) := by
  funext j
  obtain ⟨a, b, rfl⟩ : ∃ (a : Fin 16) (b : Fin 13), j = ix2 a b := ⟨j 0, j 1, eq_ix2 j⟩
  rw [tileHead_apply]
  rfl

/-- The tile heads of the second output array, compared with 1/2, are the slices' foreground bits. -/
theorem tileHead_bits (c : Dev nD) :
    cmpf .ogt (tileHead (F := Ideal) (bitArr m c))
        (broadcastInDim Cert.Spec.S2 ![] Cert.Spec.hb02 (constant (F := Ideal) Cert.Spec.S0 .f32 0x3F000000#32))
      = Cert.Spec.sliceAny (F := Ideal) (tarr m c) := by
  funext j
  obtain ⟨a, b, rfl⟩ : ∃ (a : Fin 16) (b : Fin 13), j = ix2 a b := ⟨j 0, j 1, eq_ix2 j⟩
  rw [cmpf_apply, Ideal.cmpf_def, tileHead_apply]
  exact Cert.KAny.bit_roundtrip _

/-- The frame run's post gives the result buffer. -/
theorem result (r : PUnit × MemSt nD τ sig (Elt Ideal))
    (h : Pipeline.FramePost cfgs (dats m) 0 (Pipeline.afterTail₀ cfgs (dats m) 0 (V0 m)
      [hostOps1, hostOps1_1, hostOps1_2, hostOps1_3, hostOps1_4, hostOps1_5, hostOps1_6, hostOps1_7, hostOps1_8]) r)
    (c : Dev nD) :
    r.2.mem ((c.tc : Thread nD τ).loc main_v19)
      = Cert.Spec.kernelTerm (m ((c.tc : Thread nD τ).loc main_arg0)) (m ((c.tc : Thread nD τ).loc main_arg1)) := by
  have h1 := (h c).2 main_v19 (Pipeline.mem_restRefs_of main_v19 rfl (by decide))
  refine h1.trans ?_
  unfold Pipeline.afterTail₀
  rw [Tail.result]
  have e2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  rw [e2, e3, sum_array, bit_array, tileHead_sum, tileHead_bits]
  rfl

/-- THE KERNEL'S RUN: every weakly fair execution terminates with the result buffer at `kernelTerm` of the argument
    arrays, and the argument arrays unchanged. -/
theorem run : θ_run defs (onTc (τ := τ) (main (F := Ideal))) ⟨m, fun _ => 0, ρ⟩ (fun r => ∀ c : Dev nD,
      r.2.mem ((c.tc : Thread nD τ).loc main_v19)
        = Cert.Spec.kernelTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨result m r h c,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Value

end
-- ==== Proof.Sums.lean ====
/-
  Sums over a rank-4 index set, and a real factor taken out of a sum of reals.

  The extended reals are not a semiring: `(a + b) * c = a * c + b * c` fails at the infinities. Where every summand and
  the factor are reals the law is the reals' own, and this module carries it across the coercion: the kernel multiplies
  a slice's sum by the slice's multiplier, the reference multiplies every summand, and the two agree for finite inputs.
-/
import Idealize.ShloMosaic.PureOps.Ideal
import Idealize.ShloMosaic.Lib.ValueIdx
import proofs.«415915_j10514079940984_3_alg».proof.Proof.LibReal

noncomputable section

open scoped BigOperators

namespace Cert.Sums

open Idealize.ShloMosaic Idealize.ShloMosaic.ValueIdx Cert.LibReal

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A real, cast, is a real. -/
theorem isReal_coe (r : ℝ) : IsReal (r : EReal) := ⟨r, rfl⟩

/-- The reals are closed under the extended reals' product, … -/
theorem isReal_mul {a b : EReal} (ha : IsReal a) (hb : IsReal b) : IsReal (a * b) := by
  obtain ⟨x, rfl⟩ := ha; obtain ⟨y, rfl⟩ := hb; exact ⟨x * y, (EReal.coe_mul x y).symm⟩

/-- … difference, … -/
theorem isReal_sub {a b : EReal} (ha : IsReal a) (hb : IsReal b) : IsReal (a - b) := by
  obtain ⟨x, rfl⟩ := ha; obtain ⟨y, rfl⟩ := hb; exact ⟨x - y, (EReal.coe_sub x y).symm⟩

/-- … sum, … -/
theorem isReal_add {a b : EReal} (ha : IsReal a) (hb : IsReal b) : IsReal (a + b) := by
  obtain ⟨x, rfl⟩ := ha; obtain ⟨y, rfl⟩ := hb; exact ⟨x + y, (EReal.coe_add x y).symm⟩

/-- … and finite sums. -/
theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- A real factor comes out of a finite sum of reals. -/
theorem sum_mul_real {ι : Type*} (s : Finset ι) (f : ι → EReal) (hf : ∀ i, IsReal (f i)) (m : EReal) (hm : IsReal m) :
    ∑ i ∈ s, f i * m = (∑ i ∈ s, f i) * m := by
  obtain ⟨r, rfl⟩ := hm
  choose g hg using hf
  have hf' : f = fun i => ((g i : ℝ) : EReal) := funext hg
  subst hf'
  have h1 : ∑ i ∈ s, ((g i : ℝ) : EReal) * (r : EReal) = ((∑ i ∈ s, g i * r : ℝ) : EReal) := by
    rw [coe_sum]; exact Finset.sum_congr rfl fun i _ => (EReal.coe_mul _ _).symm
  have h2 : (∑ i ∈ s, ((g i : ℝ) : EReal)) * (r : EReal) = (((∑ i ∈ s, g i) * r : ℝ) : EReal) := by
    rw [EReal.coe_mul, coe_sum]
  rw [h1, h2, Finset.sum_mul]

/-- The slice law: over slices `b` and the pixels `h`, `w` of a slice, multiplying each slice's sum by the slice's
    factor is multiplying every summand by it, when the summands and the factors are reals. -/
theorem slice_sum_mul {β : Type*} (sB : Finset β) {nh nw : Nat} (x : β → Fin nh → Fin nw → EReal) (m : β → EReal)
    (hx : ∀ b h w, IsReal (x b h w)) (hm : ∀ b, IsReal (m b)) :
    ∑ b ∈ sB, (∑ h : Fin nh, ∑ w : Fin nw, x b h w) * m b = ∑ b ∈ sB, ∑ h : Fin nh, ∑ w : Fin nw, x b h w * m b := by
  refine Finset.sum_congr rfl fun b _ => ?_
  rw [← sum_mul_real Finset.univ (fun h => ∑ w : Fin nw, x b h w) (fun h => isReal_sum _ _ (hx b h)) (m b) (hm b)]
  refine Finset.sum_congr rfl fun h _ => ?_
  rw [← sum_mul_real Finset.univ (fun w => x b h w) (hx b h) (m b) (hm b)]

end Cert.Sums

end
-- ==== Proof.BridgeReal.lean ====
/-
  Values that are reals: the two weights agree (`bit * 9 + 1` is the selection of 10 or 1), the slice multiplier is 1, 0
  or 5, and a pixel's weighted squared error is a real when the inputs are.
-/
import Idealize.ShloMosaic.PureOps.Ideal
import Idealize.ShloMosaic.PureOps.Ideal.Laws
import Idealize.ShloMosaic.Lib.ValueIdx
import Idealize.ShloMosaic.Lib.Pipeline.Value
import proofs.«415915_j10514079940984_3_alg».proof.Proof.Spec
import proofs.«415915_j10514079940984_3_alg».proof.Proof.Sums
import proofs.«415915_j10514079940984_3_alg».proof.Proof.Consts
import proofs.«415915_j10514079940984_3_alg».proof.Proof.LibReal

noncomputable section

open scoped BigOperators

namespace Cert.Bridge

open Idealize.ShloMosaic Idealize.ShloMosaic.ValueIdx Cert.Spec Cert.LibReal Cert.Sums Cert.Consts

/-- The reference's weight `bit * 9 + 1` is the kernel's selection of 10 or 1 by the bit. -/
theorem weight_eq (b : BitVec 1) :
    FloatOps.uitofp (F := Ideal) .f32 b * Ideal.ofBits .f32 0x41100000#32 + Ideal.ofBits .f32 0x3F800000#32
      = Scalar.select b (Ideal.ofBits .f32 0x41200000#32) (Ideal.ofBits .f32 0x3F800000#32) := by
  rw [ofBits_nine, ofBits_one, ofBits_ten]
  rcases BitVec.eq_zero_or_eq_one b with rfl | rfl
  · rw [select_zero]
    show (((0 : ℕ) : ℝ) : EReal) * ((9 : ℝ) : EReal) + ((1 : ℝ) : EReal) = ((1 : ℝ) : EReal)
    rw [← EReal.coe_mul, ← EReal.coe_add]; congr 1; norm_num
  · rw [select_one]
    show (((1 : ℕ) : ℝ) : EReal) * ((9 : ℝ) : EReal) + ((1 : ℝ) : EReal) = ((10 : ℝ) : EReal)
    rw [← EReal.coe_mul, ← EReal.coe_add]; congr 1; norm_num

/-- The slice multiplier takes the values 1, 0 and 5: it is a real at every slice, whatever the bits. -/
theorem sliceMult_isReal (h : IVec S2 1) (j : S2.Idx) : IsReal (sliceMult (F := Ideal) h j) := by
  unfold sliceMult
  show IsReal (Scalar.select (h j) (Ideal.ofBits .f32 0x3F800000#32)
    (Scalar.select _ (Ideal.ofBits .f32 0x00000000#32) (Ideal.ofBits .f32 0x40A00000#32)))
  unfold Scalar.select
  split_ifs
  · exact ⟨1, ofBits_one⟩
  · exact ⟨0, ofBits_zero⟩
  · exact ⟨5, ofBits_five⟩

/-- A pixel's weighted squared error is a real when the two inputs are. -/
theorem wsq_isReal (P T : FVec Ideal S4 .f32) (hP : ∀ i, IsReal (P i)) (hT : ∀ i, IsReal (T i)) (i : S4.Idx) :
    IsReal (wsq P T i) := by
  unfold wsq
  refine isReal_mul (isReal_mul (isReal_sub (hP i) (hT i)) (isReal_sub (hP i) (hT i))) ?_
  unfold Scalar.select
  split_ifs
  · exact ⟨10, ofBits_ten⟩
  · exact ⟨1, ofBits_one⟩

end Cert.Bridge

end
-- ==== Proof.BridgeSummand.lean ====
/-
  The reference's summand at one pixel, read through its two broadcasts: the kernel's weighted squared error at the
  pixel times the multiplier of the pixel's slice.
-/
import Idealize.ShloMosaic.PureOps.Ideal
import Idealize.ShloMosaic.PureOps.Ideal.Laws
import Idealize.ShloMosaic.Lib.ValueIdx
import Idealize.ShloMosaic.Lib.Pipeline.Value
import proofs.«415915_j10514079940984_3_alg».proof.Proof.Spec
import proofs.«415915_j10514079940984_3_alg».proof.Proof.Sums
import proofs.«415915_j10514079940984_3_alg».proof.Proof.Consts
import proofs.«415915_j10514079940984_3_alg».proof.Proof.LibReal
import proofs.«415915_j10514079940984_3_alg».proof.Proof.BridgeReal

noncomputable section

open scoped BigOperators

namespace Cert.Bridge

open Idealize.ShloMosaic Idealize.ShloMosaic.ValueIdx Cert.Spec Cert.LibReal Cert.Sums Cert.Consts

/-- The multiplier broadcast to the pixels, read at a pixel, is the multiplier at the pixel's slice: the first broadcast
    adds two unit axes, the second stretches them over the slice. -/
theorem mult_at_pixel (M : FVec Ideal S2 .f32) (i : S4.Idx) :
    broadcastInDim S4 ![0, 1, 2, 3] hb4114 (broadcastInDim S411 ![0, 1] hb2411 M) i = M (ix2 (i 0) (i 1)) := by
  refine (broadcastInDim_apply _ hb4114 _ i (ix4 (i 0) (i 1) (0 : Fin 1) (0 : Fin 1)) ?_).trans ?_
  · intro a
    match a with
    | ⟨0, _⟩ => rfl
    | ⟨1, _⟩ => rfl
    | ⟨2, _⟩ => rfl
    | ⟨3, _⟩ => rfl
  · refine broadcastInDim_apply _ hb2411 _ _ (ix2 (i 0) (i 1)) ?_
    intro a
    match a with
    | ⟨0, _⟩ => rfl
    | ⟨1, _⟩ => rfl

/-- The reference's summand at a pixel, for any per-pixel multiplier array `M` with value `m` there: the kernel's
    weighted squared error times `m` (the weights agree, and the product re-associates). -/
theorem summand_of (P T : FVec Ideal S4 .f32) (i : S4.Idx) (M : FVec Ideal S4 .f32) (m : EReal) (hm : M i = m) :
    (mulf (mulf (subf P T) (subf P T))
      (mulf (addf (mulf (uitofp (F := Ideal) .f32 (fgBits T)) (broadcastInDim S4 ![] hb04 (constant (F := Ideal) S0 .f32 0x41100000#32)))
              (broadcastInDim S4 ![] hb04 (constant (F := Ideal) S0 .f32 0x3F800000#32)))
        M)) i
      = wsq P T i * m := by
  show (P i - T i) * (P i - T i)
      * ((FloatOps.uitofp (F := Ideal) .f32 (fgBits T i) * Ideal.ofBits .f32 0x41100000#32 + Ideal.ofBits .f32 0x3F800000#32)
          * M i) = _
  rw [hm, weight_eq]
  exact (mul_assoc _ _ _).symm

/-- The reference's summand at a pixel is the kernel's weighted squared error there times the multiplier of the
    pixel's slice. -/
theorem ref_summand (P T : FVec Ideal S4 .f32) (M : FVec Ideal S2 .f32) (i : S4.Idx) :
    (mulf (mulf (subf P T) (subf P T))
      (mulf (addf (mulf (uitofp (F := Ideal) .f32 (fgBits T)) (broadcastInDim S4 ![] hb04 (constant (F := Ideal) S0 .f32 0x41100000#32)))
              (broadcastInDim S4 ![] hb04 (constant (F := Ideal) S0 .f32 0x3F800000#32)))
        (broadcastInDim S4 ![0, 1, 2, 3] hb4114 (broadcastInDim S411 ![0, 1] hb2411 M)))) i
      = wsq P T i * M (ix2 (i 0) (i 1)) :=
  summand_of P T i _ _ (mult_at_pixel M i)

end Cert.Bridge

end
-- ==== Proof.Bridge.lean ====
/-
  The two results are one number when the inputs are reals.

  Both divide a sum by the same pixel count, and both sums start from the same zero, so it is the sums that are
  compared. The reference's sum runs over all pixels; split by coordinates it is, slice by slice, the double sum over a
  slice's rows and columns of  (P - T)^2 * ((bit * 9 + 1) * multiplier(slice)).  The weights agree, the product
  re-associates, and the slice's multiplier — constant over the slice and a real — comes out of the double sum of reals:
  that is the kernel's  (slice sum) * multiplier(slice).
-/
import Idealize.ShloMosaic.PureOps.Ideal
import Idealize.ShloMosaic.PureOps.Ideal.Laws
import Idealize.ShloMosaic.Lib.ValueIdx
import Idealize.ShloMosaic.Lib.Pipeline.Value
import proofs.«415915_j10514079940984_3_alg».proof.Proof.Spec
import proofs.«415915_j10514079940984_3_alg».proof.Proof.Sums
import proofs.«415915_j10514079940984_3_alg».proof.Proof.Consts
import proofs.«415915_j10514079940984_3_alg».proof.Proof.LibReal
import proofs.«415915_j10514079940984_3_alg».proof.Proof.BridgeReal
import proofs.«415915_j10514079940984_3_alg».proof.Proof.BridgeSummand

noncomputable section

open scoped BigOperators

namespace Cert.Bridge

open Idealize.ShloMosaic Idealize.ShloMosaic.ValueIdx Cert.Spec Cert.LibReal Cert.Sums Cert.Consts

/-- Two host sums down to a scalar, from the same initial value, agree when the plain sums of their operands do. -/
theorem reduceAdd_congr (A : FVec Ideal S2 .f32) (B : FVec Ideal S4 .f32) (c : FVec Ideal S0 .f32)
    (h : ∑ i, A i = ∑ i, B i) : Host.reduceAdd A c hr01 hS0 = Host.reduceAdd B c hr0123 hS0 := by
  funext j
  show Ideal.hostReduceAdd hr01 A (c (Shape.Idx.first hS0)) j = Ideal.hostReduceAdd hr0123 B (c (Shape.Idx.first hS0)) j
  rw [Ideal.hostReduceAdd_total hr01 (fun b => b.elim0), Ideal.hostReduceAdd_total hr0123 (fun b => b.elim0), h]

/-- The sums agree, for any real multiplier array `M` over the slices. -/
theorem sums_eq (P T : FVec Ideal S4 .f32) (hP : ∀ i, IsReal (P i)) (hT : ∀ i, IsReal (T i))
    (M : FVec Ideal S2 .f32) (hM : ∀ j, IsReal (M j)) :
    ∑ j, (mulf (sliceSum P T) M) j
      = ∑ i, (mulf (mulf (subf P T) (subf P T))
          (mulf (addf (mulf (uitofp (F := Ideal) .f32 (fgBits T)) (broadcastInDim S4 ![] hb04 (constant (F := Ideal) S0 .f32 0x41100000#32)))
                  (broadcastInDim S4 ![] hb04 (constant (F := Ideal) S0 .f32 0x3F800000#32)))
            (broadcastInDim S4 ![0, 1, 2, 3] hb4114 (broadcastInDim S411 ![0, 1] hb2411 M)))) i := by
  rw [sum_idx2, sum_idx4]
  refine Finset.sum_congr rfl fun a _ => Finset.sum_congr rfl fun b _ => ?_
  show (∑ h : Fin 512, ∑ w : Fin 512, wsq P T (ix4 a b h w)) * M (ix2 a b) = _
  have hx : ∀ h w, IsReal (wsq P T (ix4 a b h w)) := fun h w => wsq_isReal P T hP hT _
  have hm := hM (ix2 a b)
  refine (sum_mul_real Finset.univ (fun h => ∑ w : Fin 512, wsq P T (ix4 a b h w)) (fun h => isReal_sum _ _ (hx h)) _ hm).symm.trans ?_
  refine Finset.sum_congr rfl fun h _ => ?_
  refine (sum_mul_real Finset.univ (fun w => wsq P T (ix4 a b h w)) (hx h) _ hm).symm.trans ?_
  refine Finset.sum_congr rfl fun w _ => ?_
  exact (ref_summand P T M (ix4 a b h w)).symm

/-- THE BRIDGE: for real-valued inputs the kernel's result is the reference's. -/
theorem kernelTerm_eq_refTerm (P T : FVec Ideal S4 .f32) (hP : ∀ i, IsReal (P i)) (hT : ∀ i, IsReal (T i)) :
    kernelTerm P T = refTerm P T := by
  unfold kernelTerm kernelTermOf kernelTermM refTerm
  have hM : ∀ j, IsReal (sliceMult (F := Ideal) (sliceAny T) j) := sliceMult_isReal (sliceAny T)
  generalize sliceMult (F := Ideal) (sliceAny T) = M at hM ⊢
  exact congrArg (fun x => Host.divf x (constant (F := Ideal) S0 .f32 0x4C500000#32))
    (reduceAdd_congr _ _ _ (sums_eq P T hP hT M hM))

end Cert.Bridge

end
-- ==== Proof.Finite.lean ====
/-
  The precondition read back: under `finite_inputs` every entry of both argument arrays is a real. The predicate is the
  `and` of two all-reductions, one per array, of the test |x| < +∞; each conjunct that came out 1 makes every entry of
  its array a real.
-/
import proofs.«415915_j10514079940984_3_alg».proof.Pre_finite_inputs
import proofs.«415915_j10514079940984_3_alg».proof.Proof.Gen.Pre_finite_inputs
import Idealize.ShloMosaic.Lib.ReduceAll
import Idealize.ShloMosaic.Lib.ValueIdx
import proofs.«415915_j10514079940984_3_alg».proof.Proof.LibReal

noncomputable section

namespace Cert.Finite

open Idealize.ShloMosaic Idealize.ShloMosaic.ValueIdx Cert.LibReal Cert.Pre_finite_inputs

/-- Under the precondition both arrays hold reals only. -/
theorem reals_of_pre [Cert.Pre_finite_inputs.Facts] (P T : FVec Ideal S16x13x512x512 .f32)
    (h : Cert.Pre_finite_inputs.fn (F := Ideal) P T = fun _ => 1#1) :
    (∀ i, IsReal (P i)) ∧ (∀ i, IsReal (T i)) := by
  have h0 := congrFun h ix0
  dsimp only [Cert.Pre_finite_inputs.fn] at h0
  rw [show ∀ (x y : IVec S_ 1) (i : S_.Idx), andi x y i = IntOp.andi (x i) (y i) from fun _ _ _ => rfl] at h0
  obtain ⟨hp, ht⟩ := IntOp.andi_eq_one.1 h0
  exact ⟨fun i => isReal_of_all P _ _ _ hp i, fun i => isReal_of_all T _ _ _ ht i⟩

end Cert.Finite

end
-- ==== Proof.lean ====
/-
  A slice-weighted mean squared error: the kernel against its jnp reference, over the extended reals.

  prediction P and target T are f32[16, 13, 512, 512], read as 16 x 13 slices of 512 x 512 pixels. A pixel is foreground
  when T > 1/2; a slice is foreground when one of its pixels is. Each slice gets a multiplier from the slices'
  foreground bits along the second axis: 1 if the slice is foreground, 0 if it is background and a neighbour is
  foreground, 5 otherwise. The loss is

      ( Σ over pixels  (P - T)^2 · w · mult(slice) ) / (16 · 13 · 512 · 512),     w = 10 on foreground pixels, 1 elsewhere.

  The reference forms w · mult at every pixel (w as bit · 9 + 1) and sums once over all pixels. The kernel, one grid
  point per slice, writes the slice's sum of (P - T)^2 · w and the slice's foreground bit (as 1.0 / 0.0, by two maxima)
  into 8 x 128 tiles; the lines after it read each tile's head, rebuild the bits by comparing with 1/2, compute the
  multiplier by the reference's own operations, multiply slice sum by multiplier, sum over the slices and divide.

  Equal at the extended reals: the two foreground bits of a slice are one existential over its pixels; bit · 9 + 1 is
  10 or 1; and  Σ_pixels x · mult = (Σ_pixels x) · mult  within a slice, which is the reals' distributive law — it
  needs every summand and the multiplier to be a real, and that is what the precondition (all inputs finite) gives.
  The three frames: the kernel's two are the generated frame certificates; the reference's is its run with the result
  forgotten. The ideal pass rewrote nothing, so the idealization claim is trivial.
-/
import proofs.«415915_j10514079940984_3_alg».proof.Defs
import proofs.«415915_j10514079940984_3_alg».proof.Proof.Gen.Kernel
import proofs.«415915_j10514079940984_3_alg».proof.Proof.Gen.Kernel.Skeleton
import proofs.«415915_j10514079940984_3_alg».proof.Proof.Gen.Kernel.Launch
import proofs.«415915_j10514079940984_3_alg».proof.Proof.Gen.Kernel.Points
import proofs.«415915_j10514079940984_3_alg».proof.Proof.Gen.Kernel.Frame
import proofs.«415915_j10514079940984_3_alg».proof.Proof.Gen.KernelIdeal
import proofs.«415915_j10514079940984_3_alg».proof.Proof.Gen.KernelIdeal.Skeleton
import proofs.«415915_j10514079940984_3_alg».proof.Proof.Gen.KernelIdeal.Launch
import proofs.«415915_j10514079940984_3_alg».proof.Proof.Gen.KernelIdeal.Points
import proofs.«415915_j10514079940984_3_alg».proof.Proof.Gen.KernelIdeal.Frame
import proofs.«415915_j10514079940984_3_alg».proof.Proof.Gen.ReferenceIdeal
import proofs.«415915_j10514079940984_3_alg».proof.Proof.Gen.Pre_finite_inputs
import Idealize.ShloMosaic.Adequacy
import Idealize.ShloMosaic.Init
import proofs.«415915_j10514079940984_3_alg».proof.Proof.RefRun
import proofs.«415915_j10514079940984_3_alg».proof.Proof.RefValue
import proofs.«415915_j10514079940984_3_alg».proof.Proof.KernelValue
import proofs.«415915_j10514079940984_3_alg».proof.Proof.Bridge
import proofs.«415915_j10514079940984_3_alg».proof.Proof.Finite

noncomputable section

namespace Cert.Proof

open Idealize.ShloMosaic Idealize.SL.Sem

/-- The kernel as printed runs and keeps its arguments: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: none of its 48 operations writes an argument buffer. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefValue.kept_arg0 _),
      (h c Cert.ReferenceIdeal.main_arg1).trans (Cert.ReferenceIdeal.RefValue.kept_arg1 _)⟩)
    (Cert.ReferenceIdeal.RunP.run (F := Ideal) m ρ)

/-- The ideal pass rewrote no operation. -/
theorem preserves : Cert.preserves_Kernel_KernelIdeal := trivial

/-- From memories agreeing on the arguments both programs end at `refTerm` of the arguments: the reference by its run
    read back, the kernel at `kernelTerm`, which is `refTerm` because the precondition makes both arrays real-valued. -/
theorem algebraic : Cert.algebraic_KernelIdeal_ReferenceIdeal := by
  intro m ρ m' ρ' hpre hagree
  refine ⟨fun c => Cert.Spec.refTerm (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Value.run m ρ)
    obtain ⟨hP, hT⟩ := Cert.Finite.reals_of_pre _ _ (hpre c)
    exact Cert.Bridge.kernelTerm_eq_refTerm _ _ hP hT
  · refine (θ_run Cert.ReferenceIdeal.defs _ _).mono (fun r h c => ⟨?_, ?_, ?_⟩)
      (Cert.ReferenceIdeal.RunP.run (F := Ideal) m' ρ')
    · refine (h c Cert.ReferenceIdeal.main_v25).trans ((Cert.ReferenceIdeal.RefValue.result _).trans ?_)
      show Cert.Spec.refTerm (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) = _
      rw [(hagree c).1, (hagree c).2]
    · exact (h c Cert.ReferenceIdeal.main_arg0).trans (Cert.ReferenceIdeal.RefValue.kept_arg0 _)
    · exact (h c Cert.ReferenceIdeal.main_arg1).trans (Cert.ReferenceIdeal.RefValue.kept_arg1 _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
